-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S2x10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S1x400x10000 : Shape := ⟨3, ![1, 400, 10000]⟩
abbrev S400x64 : Shape := ⟨2, ![400, 64]⟩
abbrev S400x10000 : Shape := ⟨2, ![400, 10000]⟩
abbrev S400x128 : Shape := ⟨2, ![400, 128]⟩

abbrev nBuf : Space → Nat
  | .hbm => 9
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x128, .f32⟩
  | .local _ .vmem, ⟨10, _⟩ => ⟨S10000x64, .f32⟩
  | .local _ .vmem, ⟨11, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v26 : BitVec 32 := Scalar.muli arg1 c400_i32
  let v27 : Index := Scalar.indexCast v26
  let c0_14 : Index := 0#32
  ![v27.toNat, 0]
def k0_cond4 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_6 : BitVec 32 := 0#32
  let v15 : BitVec 1 := Scalar.cmpi .ne v14 c0_i32_6
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x10000x10000 : Shape := ⟨3, ![1, 10000, 10000]⟩
abbrev S10000x10000 : Shape := ⟨2, ![10000, 10000]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x10000x10000, .f32⟩
  | .hbm, ⟨7, _⟩ => ⟨S10000x10000, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S1x10000x10000, .f32⟩
  | .hbm, ⟨17, _⟩ => ⟨S10000x10000, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x10000x10000_S1x10000x10000_1_0_0 : S2x10000x10000.Slices ![1, 0, 0] S1x10000x10000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Data.lean ====
/-
  The proof data of the fused two-layer graph convolution kernel, at any float instance.

  The grid is (layer, row band) = (2, 25), 50 points in row-major order; point `t` is layer `t / 25`, band `t % 25`.
  Three scratch buffers are carried from point to point:
    * the projected features `x · W1`, stored whole at point 0 and read at points 0 … 24;
    * the first layer `max (adj[0] · (x · W1) + b1) 0`, filled 400 rows at a time, band `b` at point `b`, complete
      after point 24;
    * its projection `h · W2`, stored whole at point 24 and read at points 25 … 49.
  The result block of point `25 + b` is band `b` of `adj[1] · (h · W2) + b2`; at points 0 … 24 the result's staging
  buffer is left untouched and is not written back.
  Between points the invariant says what each scratch holds so far: nothing at first, the projected features from
  point 1 on, the first layer's rows below `400 · t` before point `t`, the projection from point 25 on.
-/
import proofs.«100692_g74002286510483_cont_9to1_m_578_16_alg».proof.Proof.Gen.KernelIdeal.Frame
import proofs.«100692_g74002286510483_cont_9to1_m_578_16_alg».proof.Proof.Gen.KernelIdeal.Skeleton
import Idealize.ShloMosaic.Lib.ValueIdx

set_option maxRecDepth 16384

noncomputable section

namespace Cert.KernelIdeal.Carried

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four branch conditions, decided over the grid -/

/-- The first branch (store the projected features): layer 0 and band 0. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1 : ∀ t : Fin cfg0.N, cond1 (grid0.coords t) ↔ t.val = 0 :=
  (by decide +kernel : ∀ t : Fin grid0.N, cond1 (grid0.coords t) ↔ t.val = 0)

/-- The second branch (one band of the first layer): layer 0. -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)

/-- The third branch (project the finished first layer): layer 0 and the last band. -/
abbrev cond3 (i : grid0.Coords) : Prop :=
  (Scalar.cmpi .ne (Scalar.extui (Scalar.andi (Scalar.cmpi .eq (BitVec.ofNat 32 (i 0).val) 0#32) (Scalar.cmpi .eq (BitVec.ofNat 32 (i 1).val) 24#32))) 0#32) = 1#1
theorem hcond3 : ∀ t : Fin cfg0.N, cond3 (grid0.coords t) ↔ t.val = 24 :=
  (by decide +kernel : ∀ t : Fin grid0.N, cond3 (grid0.coords t) ↔ t.val = 24)

/-- The fourth branch (one band of the result): layer 1. -/
abbrev cond4 (i : grid0.Coords) : Prop := k0_cond4 i = 1#1
theorem hcond4 : ∀ t : Fin cfg0.N, cond4 (grid0.coords t) ↔ 25 ≤ t.val :=
  (by decide +kernel : ∀ t : Fin grid0.N, cond4 (grid0.coords t) ↔ 25 ≤ t.val)

/-- The band a point works on. -/
theorem band_eq : ∀ t : Fin cfg0.N, ((grid0.coords t) 1).val = t.val % 25 :=
  (by decide +kernel : ∀ t : Fin grid0.N, ((grid0.coords t) 1).val = t.val % 25)

/-! ## Where the result's window is idle, and where it is written back -/

theorem live_in : ∀ (w : Fin 7), w.val < 6 → ∀ t : Fin cfg0.N, cfg0.idle w (grid0.coords t) = false := by decide +kernel
theorem idle6 : ∀ t : Fin cfg0.N, t.val < 25 → cfg0.idle 6 (grid0.coords t) = true := by decide +kernel
theorem live6 : ∀ t : Fin cfg0.N, 25 ≤ t.val → cfg0.idle 6 (grid0.coords t) = false := by decide +kernel
theorem noFlush6 : ∀ t : Fin cfg0.N, t.val < 25 → (cfg0.win 6).flush t = false := by decide +kernel
theorem flush6 : ∀ t : Fin cfg0.N, 25 ≤ t.val → (cfg0.win 6).flush t = true := by decide +kernel

/-! ## The memrefs the body is called with -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The three scratch buffers: projected features, projected first layer, first layer. -/
abbrev scXW : Memref sig .tc .vmem S10000x128 .f32 := Memref.whole cc0_scratch0
abbrev scHW : Memref sig .tc .vmem S10000x64 .f32 := Memref.whole cc0_scratch1
abbrev scH : Memref sig .tc .vmem S10000x128 .f32 := Memref.whole cc0_scratch2

/-- What the launch hands the region besides the windows: the three scratch buffers at some contents, and the
    generator register at some state. -/
theorem PhiA_eq (c : Dev nD) :
    (Pipeline.ΦA spec0 c : sProp 𝕄)
      = iprop(iprop((∃ d, owns (c : Thread nD τ) scXW fullShare d) ∗ (∃ d, owns (c : Thread nD τ) scHW fullShare d) ∗ (∃ d, owns (c : Thread nD τ) scH fullShare d)) ∗ (∃ r, prngReg c r)) := by
  unfold Pipeline.ΦA; rw [scopedRest0_eq]; simp only [scXW, scHW, scH, owns_whole]; try rfl

/-! ## The input blocks, at their literal types -/

/-- A point by its number. -/
def pt (n : ℕ) (h : n < 50) : Fin cfg0.N := ⟨n, lt_of_lt_of_eq h (show (50 : ℕ) = cfg0.N from N_0.symm)⟩

theorem pt_val (n : ℕ) (h : n < 50) : (pt n h).val = n := rfl

abbrev adjB (c : Dev nD) (t : Fin cfg0.N) : Vec F S1x400x10000 .f32 := iblk m c 0 t
abbrev xB (c : Dev nD) (t : Fin cfg0.N) : Vec F S10000x128 .f32 := iblk m c 1 t
abbrev w1B (c : Dev nD) (t : Fin cfg0.N) : Vec F S128x128 .f32 := iblk m c 2 t
abbrev b1B (c : Dev nD) (t : Fin cfg0.N) : Vec F S1x128 .f32 := iblk m c 3 t
abbrev w2B (c : Dev nD) (t : Fin cfg0.N) : Vec F S128x64 .f32 := iblk m c 4 t
abbrev b2B (c : Dev nD) (t : Fin cfg0.N) : Vec F S1x64 .f32 := iblk m c 5 t

/-! ## What the scratch buffers come to hold -/

/-- The projected features `x · W1`, as point 0 computes them. -/
def XW (c : Dev nD) : Vec F S10000x128 .f32 := k0_pay1 (xB m c (pt 0 (by omega))) (w1B m c (pt 0 (by omega)))

/-- The point that fills row `r` of the first layer: band `r / 400`. -/
def bandPt (r : Fin 10000) : Fin cfg0.N := pt (r.val / 400) (by have := r.isLt; omega)

/-- The first layer, row by row: row `r` is row `r % 400` of what point `r / 400` stores. -/
def H (c : Dev nD) : Vec F S10000x128 .f32 := fun y =>
  k0_pay2 (adjB m c (bandPt (y 0))) (XW m c) (b1B m c (bandPt (y 0)))
    (ValueIdx.ix2 (⟨(y 0).val % 400, Nat.mod_lt _ (by omega)⟩ : Fin 400) (y 1))

/-- The first layer projected `h · W2`, as point 24 computes it. -/
def HW (c : Dev nD) : Vec F S10000x64 .f32 := k0_pay3 (H m c) (w2B m c (pt 24 (by omega)))

/-- The result block of a point of layer 1. -/
def outB (c : Dev nD) (t : Fin cfg0.N) : Vec F S400x64 .f32 := k0_pay4 (adjB m c t) (HW m c) (b2B m c t)

/-! ## The invariant between points -/

/-- Before point `n`: the projected features are in place once point 0 has run, the first layer's rows below
    `400 · n` are in place, its projection is in place once point 24 has run; nothing else is said of the scratch. -/
def PhiT (c : Dev nD) (n : ℕ) : sProp 𝕄 :=
  iprop(iprop((∃ s0, ⌜1 ≤ n → s0 = XW m c⌝ ∗ owns (c : Thread nD τ) scXW fullShare s0)
      ∗ (∃ s1, ⌜25 ≤ n → s1 = HW m c⌝ ∗ owns (c : Thread nD τ) scHW fullShare s1)
      ∗ (∃ s2, ⌜∀ y : S10000x128.Idx, (y 0).val < 400 * n → s2 y = H m c y⌝ ∗ owns (c : Thread nD τ) scH fullShare s2))
    ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
  Φ t := PhiT m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiT m c t.val := by
  dsimp only [dats]; simp only [Fin.coe_castSucc]

theorem Phi_succ (c : Dev nD) (t : Fin cfg0.N) : (dats m 0 c).Φ t.succ = PhiT m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outB m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.Carried

end
-- ==== Proof.Body.lean ====
/-
  The frame of the fused two-layer graph convolution kernel, at any float instance: the body's four control cases
  run on whole staging buffers and scratch buffers (point 0; points 1 … 23; point 24; points 25 … 49), each stated with
  what it leaves in the buffers it stores into; the invariant between points (which scratch holds what so far) is
  carried from point to point; and the launch theorem gives the run and the frame.

  The only store that does not cover its buffer is a band of 400 rows of the first layer: after it the buffer holds
  the band's payload on those rows and what it held elsewhere.
-/
import proofs.«100692_g74002286510483_cont_9to1_m_578_16_alg».proof.Proof.Data
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Carried

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer access, however they are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole buffer leaves its payload, whatever the buffer held. -/
theorem read_whole_store {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- A 10000-row buffer after the 400 rows from row `o` on are overwritten by `w`. -/
def bandWrite (o : ℕ) (w : Vec F S400x128 .f32) (s : Vec F S10000x128 .f32) : Vec F S10000x128 .f32 := fun y =>
  if h : o ≤ (y 0).val ∧ (y 0).val < o + 400 then w (ValueIdx.ix2 (⟨(y 0).val - o, by omega⟩ : Fin 400) (y 1)) else s y

/-- One store of 400 whole rows from row `o` on: inside the band the payload at the row's offset in the band,
    outside it what the buffer held. -/
theorem read_band_store {sig' : RefSig} {κ : Kind} {sp : Space} (v : View sig' κ sp S10000x128 .f32) (f : v.ty.Contents (Elt F))
    {off : Fin 2 → ℕ} {o : ℕ} (inb : ∀ a : Fin 2, off a + S400x128.size a ≤ S10000x128.size a) (w : Vec F S400x128 .f32)
    (hoff : off = ![o, 0]) :
    v.read (Elt F) (v.writes (Elt F) f [(⟨Rect.unit (s := S10000x128) off S400x128.size inb, w⟩ : View.Piece (Elt F) S10000x128 .f32)])
      = bandWrite o w (v.read (Elt F) f) := by
  funext y
  rw [View.read_writes_cons_rows v f inb w [] y hoff (W := 400) rfl rfl]
  show _ = (if h : o ≤ (y 0).val ∧ (y 0).val < o + 400 then w (ValueIdx.ix2 (⟨(y 0).val - o, by omega⟩ : Fin 400) (y 1)) else v.read (Elt F) f y)
  by_cases h : o ≤ (y 0).val ∧ (y 0).val < o + 400
  · rw [dif_pos h, dif_pos h]
    refine congrArg w (funext fun a => Fin.ext ?_)
    match a with
    | ⟨0, _⟩ => rfl
    | ⟨1, _⟩ => exact Nat.sub_zero _
  · rw [dif_neg h, dif_neg h]; rfl

set_option maxHeartbeats 1000000 in
/-- Point 0: the body stores the projected features `x · W1` into their scratch, reads them back, and stores band 0 of
    the first layer. -/
theorem runA (c : Dev nD) (i : grid0.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x128 .f32) (harg9 : arg9.IsWhole)
    (arg10 : Memref sig .tc .vmem S10000x64 .f32) (harg10 : arg10.IsWhole) (arg11 : Memref sig .tc .vmem S10000x128 .f32) (harg11 : arg11.IsWhole)
    (hc1 : cond1 i) (hc2 : cond2 i) (hc3 : ¬cond3 i) (hc4 : ¬cond4 i)
    (a : Vec F S1x400x10000 .f32) (x : Vec F S10000x128 .f32) (w1 : Vec F S128x128 .f32) (b1 : Vec F S1x128 .f32) (s2 : Vec F S10000x128 .f32)
    (E : Set ℕ) (K : PUnit → sProp 𝕄) :
    iprop(owns (c : Thread nD τ) arg2 fullShare a ∗ owns (c : Thread nD τ) arg3 fullShare x ∗ owns (c : Thread nD τ) arg4 fullShare w1
        ∗ owns (c : Thread nD τ) arg5 fullShare b1 ∗ (∃ d, owns (c : Thread nD τ) arg9 fullShare d) ∗ owns (c : Thread nD τ) arg11 fullShare s2
        ∗ (iprop(owns (c : Thread nD τ) arg2 fullShare a ∗ owns (c : Thread nD τ) arg3 fullShare x ∗ owns (c : Thread nD τ) arg4 fullShare w1
            ∗ owns (c : Thread nD τ) arg5 fullShare b1 ∗ owns (c : Thread nD τ) arg9 fullShare (k0_pay1 x w1)
            ∗ owns (c : Thread nD τ) arg11 fullShare (bandWrite (400 * (i 1).val) (k0_pay2 a (k0_pay1 x w1) b1) s2)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%d9, %f9, -, H9⟩, ⟨%f11, %hf11, H11⟩, Hk⟩
  obtain rfl := harg2.eq_unread hf2; obtain rfl := harg3.eq_unread hf3; obtain rfl := harg4.eq_unread hf4
  obtain rfl := harg5.eq_unread hf5; obtain rfl := harg11.eq_unread hf11
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H9]
  · iexists _; isplitr
    swap; · iexact H9
    ipureintro
    sl_unfold_words
    rw [read_whole_store _ _ hz2]
    simp only [View.readAt_eq_ld, harg3.read_unread, harg4.read_unread,
      View.ld_unit_zero (S := S10000x128) hz2, View.ld_unit_zero (S := S128x128) hz2]
  iexists _; isplitr
  swap; · iexact H11
  ipureintro
  rw [read_band_store _ _ _ _ (k0_off1_eq i), harg11.read_unread]
  sl_unfold_words
  simp only [View.readAt_eq_ld, harg2.read_unread, harg3.read_unread, harg4.read_unread, harg5.read_unread,
    View.ld_unit_zero (S := S1x400x10000) hz3, View.ld_unit_zero (S := S10000x128) hz2, View.ld_unit_zero (S := S128x128) hz2,
    View.ld_unit_zero (S := S1x128) hz2, View.readCov_unit_zero (S := S10000x128) _ hz2]

set_option maxHeartbeats 1000000 in
/-- Points 1 … 23: the body reads the projected features from their scratch and stores one band of the first layer. -/
theorem runB (c : Dev nD) (i : grid0.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x128 .f32) (harg9 : arg9.IsWhole)
    (arg10 : Memref sig .tc .vmem S10000x64 .f32) (harg10 : arg10.IsWhole) (arg11 : Memref sig .tc .vmem S10000x128 .f32) (harg11 : arg11.IsWhole)
    (hc1 : ¬cond1 i) (hc2 : cond2 i) (hc3 : ¬cond3 i) (hc4 : ¬cond4 i)
    (a : Vec F S1x400x10000 .f32) (b1 : Vec F S1x128 .f32) (xw : Vec F S10000x128 .f32) (s2 : Vec F S10000x128 .f32)
    (E : Set ℕ) (K : PUnit → sProp 𝕄) :
    iprop(owns (c : Thread nD τ) arg2 fullShare a ∗ owns (c : Thread nD τ) arg5 fullShare b1
        ∗ owns (c : Thread nD τ) arg9 fullShare xw ∗ owns (c : Thread nD τ) arg11 fullShare s2
        ∗ (iprop(owns (c : Thread nD τ) arg2 fullShare a ∗ owns (c : Thread nD τ) arg5 fullShare b1
            ∗ owns (c : Thread nD τ) arg9 fullShare xw
            ∗ owns (c : Thread nD τ) arg11 fullShare (bandWrite (400 * (i 1).val) (k0_pay2 a xw b1) s2)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f5, %hf5, H5⟩, ⟨%f9, %hf9, H9⟩, ⟨%f11, %hf11, H11⟩, Hk⟩
  obtain rfl := harg2.eq_unread hf2; obtain rfl := harg5.eq_unread hf5
  obtain rfl := harg9.eq_unread hf9; obtain rfl := harg11.eq_unread hf11
  sl_exec (disch := first | exact hc1 | exact hc2 | exact hc3 | exact hc4)
  sl_step
  iapply Hk
  isplitl [H2]
  · iexists _; isplitr; · ipureintro; exact harg2.read_unread _
    iexact H2
  isplitl [H5]
  · iexists _; isplitr; · ipureintro; exact harg5.read_unread _
    iexact H5
  isplitl [H9]
  · iexists _; isplitr; · ipureintro; exact harg9.read_unread _
    iexact H9
  iexists _; isplitr
  swap; · iexact H11
  ipureintro
  rw [read_band_store _ _ _ _ (k0_off1_eq i), harg11.read_unread]
  simp only [View.readAt_eq_ld, harg2.read_unread, harg5.read_unread, harg9.read_unread,
    View.ld_unit_zero (S := S1x400x10000) hz3, View.ld_unit_zero (S := S10000x128) hz2, View.ld_unit_zero (S := S1x128) hz2]

set_option maxHeartbeats 1000000 in
/-- Point 24: the body stores the last band of the first layer, reads the whole first layer back and stores its
    projection `h · W2` into its scratch. -/
theorem runC (c : Dev nD) (i : grid0.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x128 .f32) (harg9 : arg9.IsWhole)
    (arg10 : Memref sig .tc .vmem S10000x64 .f32) (harg10 : arg10.IsWhole) (arg11 : Memref sig .tc .vmem S10000x128 .f32) (harg11 : arg11.IsWhole)
    (hc1 : ¬cond1 i) (hc2 : cond2 i) (hc3 : cond3 i) (hc4 : ¬cond4 i)
    (a : Vec F S1x400x10000 .f32) (b1 : Vec F S1x128 .f32) (w2 : Vec F S128x64 .f32) (xw : Vec F S10000x128 .f32) (s2 : Vec F S10000x128 .f32)
    (E : Set ℕ) (K : PUnit → sProp 𝕄) :
    iprop(owns (c : Thread nD τ) arg2 fullShare a ∗ owns (c : Thread nD τ) arg5 fullShare b1 ∗ owns (c : Thread nD τ) arg6 fullShare w2
        ∗ owns (c : Thread nD τ) arg9 fullShare xw ∗ (∃ d, owns (c : Thread nD τ) arg10 fullShare d) ∗ owns (c : Thread nD τ) arg11 fullShare s2
        ∗ (iprop(owns (c : Thread nD τ) arg2 fullShare a ∗ owns (c : Thread nD τ) arg5 fullShare b1 ∗ owns (c : Thread nD τ) arg6 fullShare w2
            ∗ owns (c : Thread nD τ) arg9 fullShare xw
            ∗ owns (c : Thread nD τ) arg10 fullShare (k0_pay3 (bandWrite (400 * (i 1).val) (k0_pay2 a xw b1) s2) w2)
            ∗ owns (c : Thread nD τ) arg11 fullShare (bandWrite (400 * (i 1).val) (k0_pay2 a xw b1) s2)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f5, %hf5, H5⟩, ⟨%f6, %hf6, H6⟩, ⟨%f9, %hf9, H9⟩, ⟨%d10, %f10, -, H10⟩, ⟨%f11, %hf11, H11⟩, Hk⟩
  obtain rfl := harg2.eq_unread hf2; obtain rfl := harg5.eq_unread hf5; obtain rfl := harg6.eq_unread hf6
  obtain rfl := harg9.eq_unread hf9; obtain rfl := harg11.eq_unread hf11
  sl_exec (disch := first | exact hc1 | exact hc2 | exact hc3 | exact hc4)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H9]
  · iexists _; isplitr; · ipureintro; exact harg9.read_unread _
    iexact H9
  isplitl [H10]
  · iexists _; isplitr
    swap; · iexact H10
    ipureintro
    rw [read_whole_store _ _ hz2]
    unfold runC.sl.v16 runC.sl.H11_1
    simp only [View.readAt_eq_ld, harg2.read_unread, harg5.read_unread, harg6.read_unread, harg9.read_unread,
      View.ld_unit_zero (S := S1x400x10000) hz3, View.ld_unit_zero (S := S10000x128) hz2, View.ld_unit_zero (S := S1x128) hz2,
      View.ld_unit_zero (S := S128x64) hz2]
    rw [read_band_store _ _ _ _ (k0_off1_eq i), harg11.read_unread]
  iexists _; isplitr
  swap; · iexact H11
  ipureintro
  unfold runC.sl.H11_1
  rw [read_band_store _ _ _ _ (k0_off1_eq i), harg11.read_unread]
  simp only [View.readAt_eq_ld, harg2.read_unread, harg5.read_unread, harg9.read_unread,
    View.ld_unit_zero (S := S1x400x10000) hz3, View.ld_unit_zero (S := S10000x128) hz2, View.ld_unit_zero (S := S1x128) hz2]

set_option maxHeartbeats 1000000 in
/-- A point of layer 1: the body reads the band of `adj[1]`, the projected first layer from its scratch and the bias
    row, and stores the band of the result over whatever the result's staging buffer held. -/
theorem runD (c : Dev nD) (i : grid0.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x128 .f32) (harg9 : arg9.IsWhole)
    (arg10 : Memref sig .tc .vmem S10000x64 .f32) (harg10 : arg10.IsWhole) (arg11 : Memref sig .tc .vmem S10000x128 .f32) (harg11 : arg11.IsWhole)
    (hc1 : ¬cond1 i) (hc2 : ¬cond2 i) (hc3 : ¬cond3 i) (hc4 : cond4 i)
    (a : Vec F S1x400x10000 .f32) (b2 : Vec F S1x64 .f32) (hw : Vec F S10000x64 .f32)
    (E : Set ℕ) (K : PUnit → sProp 𝕄) :
    iprop(owns (c : Thread nD τ) arg2 fullShare a ∗ owns (c : Thread nD τ) arg7 fullShare b2
        ∗ (∃ d, owns (c : Thread nD τ) arg8 fullShare d) ∗ owns (c : Thread nD τ) arg10 fullShare hw
        ∗ (iprop(owns (c : Thread nD τ) arg2 fullShare a ∗ owns (c : Thread nD τ) arg7 fullShare b2
            ∗ owns (c : Thread nD τ) arg8 fullShare (k0_pay4 a hw b2) ∗ owns (c : Thread nD τ) arg10 fullShare hw) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3 | exact hc4)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr
    swap; · iexact H8
    ipureintro
    rw [read_whole_store _ _ hz2]
    simp only [View.readAt_eq_ld, harg2.read_unread, harg7.read_unread, harg10.read_unread,
      View.ld_unit_zero (S := S1x400x10000) hz3, View.ld_unit_zero (S := S10000x64) hz2, View.ld_unit_zero (S := S1x64) hz2]
  iexists _; isplitr; · ipureintro; exact harg10.read_unread _
  iexact H10

/-! ## One step of the first layer's invariant -/

/-- If the rows below `400 t` are the first layer's, then after point `t` of layer 0 has overwritten band `t` with
    what it computes from its block of `adj[0]`, the rows below `400 (t + 1)` are. -/
theorem band_step (c : Dev nD) (t : Fin cfg0.N) (ht : t.val < 25) (s2 : Vec F S10000x128 .f32)
    (hs : ∀ y : S10000x128.Idx, (y 0).val < 400 * t.val → s2 y = H m c y) :
    ∀ y : S10000x128.Idx, (y 0).val < 400 * (t.val + 1) →
      bandWrite (400 * ((grid0.coords t) 1).val) (k0_pay2 (adjB m c t) (XW m c) (b1B m c t)) s2 y = H m c y := by
  intro y hy
  have hb : ((grid0.coords t) 1).val = t.val := (band_eq t).trans (Nat.mod_eq_of_lt ht)
  rw [hb]
  show (if h : 400 * t.val ≤ (y 0).val ∧ (y 0).val < 400 * t.val + 400 then
      k0_pay2 (adjB m c t) (XW m c) (b1B m c t) (ValueIdx.ix2 (⟨(y 0).val - 400 * t.val, by omega⟩ : Fin 400) (y 1)) else s2 y) = _
  by_cases h : 400 * t.val ≤ (y 0).val ∧ (y 0).val < 400 * t.val + 400
  · rw [dif_pos h]
    have e : bandPt (y 0) = t := Fin.ext (by show (y 0).val / 400 = t.val; omega)
    show _ = k0_pay2 (adjB m c (bandPt (y 0))) (XW m c) (b1B m c (bandPt (y 0)))
      (ValueIdx.ix2 (⟨(y 0).val % 400, Nat.mod_lt _ (by omega)⟩ : Fin 400) (y 1))
    rw [e]
    exact congrArg (fun p : Fin 400 => k0_pay2 (adjB m c t) (XW m c) (b1B m c t) (ValueIdx.ix2 p (y 1)))
      (Fin.ext (by show (y 0).val - 400 * t.val = (y 0).val % 400; omega))
  · rw [dif_neg h]; exact hs y (by omega)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

theorem leaves_in (c : Dev nD) (t : Fin cfg0.N) (w : Fin 7) (hw : w.val < 6) :
    (dats m 0 c).leavesExact w t = owns (c : Thread nD τ) ((cfg0.win w).stage (cfg0.slots t w)) fullShare ((dats m 0 c).after w t) := by
  unfold Dat.leavesExact; rw [live_in w hw t]

set_option maxHeartbeats 4800000 in
/-- The body at any point. The inputs' buffers hold their blocks; the point's number says which branches run; the
    invariant hands over the scratch buffers with what is known of them and takes them back with what the point added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_castSucc, Phi_succ]
  rw [leaves_in m c t 0 (by decide), leaves_in m c t 1 (by decide), leaves_in m c t 2 (by decide), leaves_in m c t 3 (by decide),
    leaves_in m c t 4 (by decide), leaves_in m c t 5 (by decide), after0, after1, after2, after3, after4, after5]
  unfold PhiT
  have hN : t.val < 50 := lt_of_lt_of_eq t.isLt (show cfg0.N = 50 from N_0)
  by_cases hl : t.val < 25
  · -- layer 0: the result's buffer is handed back as found
    rw [Dat.leavesExact_idle (dats m 0 c) 6 t (idle6 t hl) (noFlush6 t hl)]
    have hc2 : cond2 (grid0.coords t) := (hcond2 t).mpr hl
    have hc4 : ¬cond4 (grid0.coords t) := fun h => by have := (hcond4 t).mp h; omega
    by_cases h0 : t.val = 0
    · have hc1 : cond1 (grid0.coords t) := (hcond1 t).mpr h0
      have hc3 : ¬cond3 (grid0.coords t) := fun h => by have := (hcond3 t).mp h; omega
      have hXW : k0_pay1 (xB m c t) (w1B m c t) = XW m c := by
        rw [show t = pt 0 (by omega) from Fin.ext h0]; rfl
      iintro ⟨⟨⟨⟨%s0, %hp0, HS0⟩, ⟨%s1, %hp1, HS1⟩, ⟨%s2, %hp2, HS2⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) (ms0 t) (hs0 t) (ms1 t) (hs1 t) (ms2 t) (hs2 t) (ms3 t) (hs3 t) (ms4 t) (hs4 t) (ms5 t) (hs5 t) (ms6 t) (hs6 t)
        scXW (Memref.isWhole_whole _) scHW (Memref.isWhole_whole _) scH (Memref.isWhole_whole _) hc1 hc2 hc3 hc4
        (adjB m c t) (xB m c t) (w1B m c t) (b1B m c t) s2 Set.univ _)
      isplitl [H0]; · iexact H0
      isplitl [H1]; · iexact H1
      isplitl [H2]; · iexact H2
      isplitl [H3]; · iexact H3
      isplitl [HS0]; · iexists _; iexact HS0
      isplitl [HS2]; · iexact HS2
      iintro ⟨H0, H1, H2, H3, HS0, HS2⟩
      isplitl [HS0 HS1 HS2 Hg]
      · isplitr [Hg]
        · isplitl [HS0]
          · iexists _; isplitr
            swap; · iexact HS0
            ipureintro; intro _; exact hXW.symm
          isplitl [HS1]
          · iexists _; isplitr
            swap; · iexact HS1
            ipureintro; intro h; omega
          iexists _; isplitr
          swap; · iexact HS2
          ipureintro; rw [hXW]; exact band_step m c t hl s2 hp2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc1 : ¬cond1 (grid0.coords t) := fun h => h0 ((hcond1 t).mp h)
      by_cases h24 : t.val = 24
      · have hc3 : cond3 (grid0.coords t) := (hcond3 t).mpr h24
        iintro ⟨⟨⟨⟨%s0, %hp0, HS0⟩, ⟨%s1, %hp1, HS1⟩, ⟨%s2, %hp2, HS2⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := hp0 (by omega)
        have hfull : bandWrite (400 * ((grid0.coords t) 1).val) (k0_pay2 (adjB m c t) (XW m c) (b1B m c t)) s2 = H m c :=
          funext fun y => band_step m c t hl s2 hp2 y (by have hy : (y 0).val < 10000 := (y 0).isLt; omega)
        iapply (runC c (grid0.coords t) (ms0 t) (hs0 t) (ms1 t) (hs1 t) (ms2 t) (hs2 t) (ms3 t) (hs3 t) (ms4 t) (hs4 t) (ms5 t) (hs5 t) (ms6 t) (hs6 t)
          scXW (Memref.isWhole_whole _) scHW (Memref.isWhole_whole _) scH (Memref.isWhole_whole _) hc1 hc2 hc3 hc4
          (adjB m c t) (b1B m c t) (w2B m c t) (XW m c) s2 Set.univ _)
        isplitl [H0]; · iexact H0
        isplitl [H3]; · iexact H3
        isplitl [H4]; · iexact H4
        isplitl [HS0]; · iexact HS0
        isplitl [HS1]; · iexists _; iexact HS1
        isplitl [HS2]; · iexact HS2
        iintro ⟨H0, H3, H4, HS0, HS1, HS2⟩
        isplitl [HS0 HS1 HS2 Hg]
        · isplitr [Hg]
          · isplitl [HS0]
            · iexists _; isplitr
              swap; · iexact HS0
              ipureintro; intro _; rfl
            isplitl [HS1]
            · iexists _; isplitr
              swap; · iexact HS1
              ipureintro; intro _; rw [hfull, show t = pt 24 (by omega) from Fin.ext h24]; rfl
            iexists _; isplitr
            swap; · iexact HS2
            ipureintro; exact band_step m c t hl s2 hp2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · have hc3 : ¬cond3 (grid0.coords t) := fun h => h24 ((hcond3 t).mp h)
        iintro ⟨⟨⟨⟨%s0, %hp0, HS0⟩, ⟨%s1, %hp1, HS1⟩, ⟨%s2, %hp2, HS2⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := hp0 (by omega)
        iapply (runB c (grid0.coords t) (ms0 t) (hs0 t) (ms1 t) (hs1 t) (ms2 t) (hs2 t) (ms3 t) (hs3 t) (ms4 t) (hs4 t) (ms5 t) (hs5 t) (ms6 t) (hs6 t)
          scXW (Memref.isWhole_whole _) scHW (Memref.isWhole_whole _) scH (Memref.isWhole_whole _) hc1 hc2 hc3 hc4
          (adjB m c t) (b1B m c t) (XW m c) s2 Set.univ _)
        isplitl [H0]; · iexact H0
        isplitl [H3]; · iexact H3
        isplitl [HS0]; · iexact HS0
        isplitl [HS2]; · iexact HS2
        iintro ⟨H0, H3, HS0, HS2⟩
        isplitl [HS0 HS1 HS2 Hg]
        · isplitr [Hg]
          · isplitl [HS0]
            · iexists _; isplitr
              swap; · iexact HS0
              ipureintro; intro _; rfl
            isplitl [HS1]
            · iexists _; isplitr
              swap; · iexact HS1
              ipureintro; intro h; omega
            iexists _; isplitr
            swap; · iexact HS2
            ipureintro; exact band_step m c t hl s2 hp2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · -- layer 1: one band of the result
    have hl' : 25 ≤ t.val := by omega
    rw [show (dats m 0 c).leavesExact 6 t = owns (c : Thread nD τ) (ms6 t) fullShare ((dats m 0 c).after 6 t) from by
      unfold Dat.leavesExact; rw [live6 t hl'], after6]
    have hc1 : ¬cond1 (grid0.coords t) := fun h => by have := (hcond1 t).mp h; omega
    have hc2 : ¬cond2 (grid0.coords t) := fun h => hl ((hcond2 t).mp h)
    have hc3 : ¬cond3 (grid0.coords t) := fun h => by have := (hcond3 t).mp h; omega
    have hc4 : cond4 (grid0.coords t) := (hcond4 t).mpr hl'
    iintro ⟨⟨⟨⟨%s0, %hp0, HS0⟩, ⟨%s1, %hp1, HS1⟩, ⟨%s2, %hp2, HS2⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hp1 hl'
    iapply (runD c (grid0.coords t) (ms0 t) (hs0 t) (ms1 t) (hs1 t) (ms2 t) (hs2 t) (ms3 t) (hs3 t) (ms4 t) (hs4 t) (ms5 t) (hs5 t) (ms6 t) (hs6 t)
      scXW (Memref.isWhole_whole _) scHW (Memref.isWhole_whole _) scH (Memref.isWhole_whole _) hc1 hc2 hc3 hc4
      (adjB m c t) (b2B m c t) (HW m c) Set.univ _)
    isplitl [H0]; · iexact H0
    isplitl [H5]; · iexact H5
    isplitl [H6]; · iexists _; iexact H6
    isplitl [HS1]; · iexact HS1
    iintro ⟨H0, H5, H6, HS1⟩
    isplitl [HS0 HS1 HS2 Hg]
    · isplitr [Hg]
      · isplitl [HS0]
        · iexists _; isplitr
          swap; · iexact HS0
          ipureintro; intro _; exact hp0 (by omega)
        isplitl [HS1]
        · iexists _; isplitr
          swap; · iexact HS1
          ipureintro; intro _; rfl
        iexists _; isplitr
        swap; · iexact HS2
        ipureintro; intro y _; exact hp2 y (by have hy : (y 0).val < 10000 := (y 0).isLt; omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratch yet. -/
theorem hin (c : Dev nD) : Pipeline.ΦA spec0 c ⊢ (dats m 0 c).Φ 0 := by
  rw [show (dats m 0 c).Φ 0 = PhiT m c 0 from rfl, PhiA_eq]
  unfold PhiT
  iintro ⟨⟨⟨%s0, HS0⟩, ⟨%s1, HS1⟩, ⟨%s2, HS2⟩⟩, Hg⟩
  isplitr [Hg]
  · isplitl [HS0]
    · iexists s0; isplitr; · ipureintro; intro h; omega
      iexact HS0
    isplitl [HS1]
    · iexists s1; isplitr; · ipureintro; intro h; omega
      iexact HS1
    iexists s2; isplitr; · ipureintro; intro y h; omega
    iexact HS2
  iexact Hg

/-- After the last point the invariant gives the scratch buffers back, what they hold forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨⟨⟨%s0, -, HS0⟩, ⟨%s1, -, HS1⟩, ⟨%s2, -, HS2⟩⟩, Hg⟩
  isplitr [Hg]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has each array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run with the result array named as well: at the end the result holds what the write-backs of the proof
    data leave (each argument array read off the launch's post as the frame does). -/
theorem run_named : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Body

end
-- ==== Proof.DataK.lean ====
/-
  The proof data of the fused two-layer graph convolution kernel, at any float instance.

  The grid is (layer, row band) = (2, 25), 50 points in row-major order; point `t` is layer `t / 25`, band `t % 25`.
  Three scratch buffers are carried from point to point:
    * the projected features `x · W1`, stored whole at point 0 and read at points 0 … 24;
    * the first layer `max (adj[0] · (x · W1) + b1) 0`, filled 400 rows at a time, band `b` at point `b`, complete
      after point 24;
    * its projection `h · W2`, stored whole at point 24 and read at points 25 … 49.
  The result block of point `25 + b` is band `b` of `adj[1] · (h · W2) + b2`; at points 0 … 24 the result's staging
  buffer is left untouched and is not written back.
  Between points the invariant says what each scratch holds so far: nothing at first, the projected features from
  point 1 on, the first layer's rows below `400 · t` before point `t`, the projection from point 25 on.
-/
import proofs.«100692_g74002286510483_cont_9to1_m_578_16_alg».proof.Proof.Gen.Kernel.Frame
import proofs.«100692_g74002286510483_cont_9to1_m_578_16_alg».proof.Proof.Gen.Kernel.Skeleton
import Idealize.ShloMosaic.Lib.ValueIdx

set_option maxRecDepth 16384

noncomputable section

namespace Cert.Kernel.Carried

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four branch conditions, decided over the grid -/

/-- The first branch (store the projected features): layer 0 and band 0. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1 : ∀ t : Fin cfg0.N, cond1 (grid0.coords t) ↔ t.val = 0 :=
  (by decide +kernel : ∀ t : Fin grid0.N, cond1 (grid0.coords t) ↔ t.val = 0)

/-- The second branch (one band of the first layer): layer 0. -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)

/-- The third branch (project the finished first layer): layer 0 and the last band. -/
abbrev cond3 (i : grid0.Coords) : Prop :=
  (Scalar.cmpi .ne (Scalar.extui (Scalar.andi (Scalar.cmpi .eq (BitVec.ofNat 32 (i 0).val) 0#32) (Scalar.cmpi .eq (BitVec.ofNat 32 (i 1).val) 24#32))) 0#32) = 1#1
theorem hcond3 : ∀ t : Fin cfg0.N, cond3 (grid0.coords t) ↔ t.val = 24 :=
  (by decide +kernel : ∀ t : Fin grid0.N, cond3 (grid0.coords t) ↔ t.val = 24)

/-- The fourth branch (one band of the result): layer 1. -/
abbrev cond4 (i : grid0.Coords) : Prop := k0_cond4 i = 1#1
theorem hcond4 : ∀ t : Fin cfg0.N, cond4 (grid0.coords t) ↔ 25 ≤ t.val :=
  (by decide +kernel : ∀ t : Fin grid0.N, cond4 (grid0.coords t) ↔ 25 ≤ t.val)

/-- The band a point works on. -/
theorem band_eq : ∀ t : Fin cfg0.N, ((grid0.coords t) 1).val = t.val % 25 :=
  (by decide +kernel : ∀ t : Fin grid0.N, ((grid0.coords t) 1).val = t.val % 25)

/-! ## Where the result's window is idle, and where it is written back -/

theorem live_in : ∀ (w : Fin 7), w.val < 6 → ∀ t : Fin cfg0.N, cfg0.idle w (grid0.coords t) = false := by decide +kernel
theorem idle6 : ∀ t : Fin cfg0.N, t.val < 25 → cfg0.idle 6 (grid0.coords t) = true := by decide +kernel
theorem live6 : ∀ t : Fin cfg0.N, 25 ≤ t.val → cfg0.idle 6 (grid0.coords t) = false := by decide +kernel
theorem noFlush6 : ∀ t : Fin cfg0.N, t.val < 25 → (cfg0.win 6).flush t = false := by decide +kernel
theorem flush6 : ∀ t : Fin cfg0.N, 25 ≤ t.val → (cfg0.win 6).flush t = true := by decide +kernel

/-! ## The memrefs the body is called with -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The three scratch buffers: projected features, projected first layer, first layer. -/
abbrev scXW : Memref sig .tc .vmem S10000x128 .f32 := Memref.whole cc0_scratch0
abbrev scHW : Memref sig .tc .vmem S10000x64 .f32 := Memref.whole cc0_scratch1
abbrev scH : Memref sig .tc .vmem S10000x128 .f32 := Memref.whole cc0_scratch2

/-- What the launch hands the region besides the windows: the three scratch buffers at some contents, and the
    generator register at some state. -/
theorem PhiA_eq (c : Dev nD) :
    (Pipeline.ΦA spec0 c : sProp 𝕄)
      = iprop(iprop((∃ d, owns (c : Thread nD τ) scXW fullShare d) ∗ (∃ d, owns (c : Thread nD τ) scHW fullShare d) ∗ (∃ d, owns (c : Thread nD τ) scH fullShare d)) ∗ (∃ r, prngReg c r)) := by
  unfold Pipeline.ΦA; rw [scopedRest0_eq]; simp only [scXW, scHW, scH, owns_whole]; try rfl

/-! ## The input blocks, at their literal types -/

/-- A point by its number. -/
def pt (n : ℕ) (h : n < 50) : Fin cfg0.N := ⟨n, lt_of_lt_of_eq h (show (50 : ℕ) = cfg0.N from N_0.symm)⟩

theorem pt_val (n : ℕ) (h : n < 50) : (pt n h).val = n := rfl

abbrev adjB (c : Dev nD) (t : Fin cfg0.N) : Vec F S1x400x10000 .f32 := iblk m c 0 t
abbrev xB (c : Dev nD) (t : Fin cfg0.N) : Vec F S10000x128 .f32 := iblk m c 1 t
abbrev w1B (c : Dev nD) (t : Fin cfg0.N) : Vec F S128x128 .f32 := iblk m c 2 t
abbrev b1B (c : Dev nD) (t : Fin cfg0.N) : Vec F S1x128 .f32 := iblk m c 3 t
abbrev w2B (c : Dev nD) (t : Fin cfg0.N) : Vec F S128x64 .f32 := iblk m c 4 t
abbrev b2B (c : Dev nD) (t : Fin cfg0.N) : Vec F S1x64 .f32 := iblk m c 5 t

/-! ## What the scratch buffers come to hold -/

/-- The projected features `x · W1`, as point 0 computes them. -/
def XW (c : Dev nD) : Vec F S10000x128 .f32 := k0_pay1 (xB m c (pt 0 (by omega))) (w1B m c (pt 0 (by omega)))

/-- The point that fills row `r` of the first layer: band `r / 400`. -/
def bandPt (r : Fin 10000) : Fin cfg0.N := pt (r.val / 400) (by have := r.isLt; omega)

/-- The first layer, row by row: row `r` is row `r % 400` of what point `r / 400` stores. -/
def H (c : Dev nD) : Vec F S10000x128 .f32 := fun y =>
  k0_pay2 (adjB m c (bandPt (y 0))) (XW m c) (b1B m c (bandPt (y 0)))
    (ValueIdx.ix2 (⟨(y 0).val % 400, Nat.mod_lt _ (by omega)⟩ : Fin 400) (y 1))

/-- The first layer projected `h · W2`, as point 24 computes it. -/
def HW (c : Dev nD) : Vec F S10000x64 .f32 := k0_pay3 (H m c) (w2B m c (pt 24 (by omega)))

/-- The result block of a point of layer 1. -/
def outB (c : Dev nD) (t : Fin cfg0.N) : Vec F S400x64 .f32 := k0_pay4 (adjB m c t) (HW m c) (b2B m c t)

/-! ## The invariant between points -/

/-- Before point `n`: the projected features are in place once point 0 has run, the first layer's rows below
    `400 · n` are in place, its projection is in place once point 24 has run; nothing else is said of the scratch. -/
def PhiT (c : Dev nD) (n : ℕ) : sProp 𝕄 :=
  iprop(iprop((∃ s0, ⌜1 ≤ n → s0 = XW m c⌝ ∗ owns (c : Thread nD τ) scXW fullShare s0)
      ∗ (∃ s1, ⌜25 ≤ n → s1 = HW m c⌝ ∗ owns (c : Thread nD τ) scHW fullShare s1)
      ∗ (∃ s2, ⌜∀ y : S10000x128.Idx, (y 0).val < 400 * n → s2 y = H m c y⌝ ∗ owns (c : Thread nD τ) scH fullShare s2))
    ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
  Φ t := PhiT m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiT m c t.val := by
  dsimp only [dats]; simp only [Fin.coe_castSucc]

theorem Phi_succ (c : Dev nD) (t : Fin cfg0.N) : (dats m 0 c).Φ t.succ = PhiT m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outB m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.Kernel.Carried

end
-- ==== Proof.BodyK.lean ====
/-
  The frame of the fused two-layer graph convolution kernel, at any float instance: the body's four control cases
  run on whole staging buffers and scratch buffers (point 0; points 1 … 23; point 24; points 25 … 49), each stated with
  what it leaves in the buffers it stores into; the invariant between points (which scratch holds what so far) is
  carried from point to point; and the launch theorem gives the run and the frame.

  The only store that does not cover its buffer is a band of 400 rows of the first layer: after it the buffer holds
  the band's payload on those rows and what it held elsewhere.
-/
import proofs.«100692_g74002286510483_cont_9to1_m_578_16_alg».proof.Proof.DataK
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Carried

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer access, however they are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole buffer leaves its payload, whatever the buffer held. -/
theorem read_whole_store {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- A 10000-row buffer after the 400 rows from row `o` on are overwritten by `w`. -/
def bandWrite (o : ℕ) (w : Vec F S400x128 .f32) (s : Vec F S10000x128 .f32) : Vec F S10000x128 .f32 := fun y =>
  if h : o ≤ (y 0).val ∧ (y 0).val < o + 400 then w (ValueIdx.ix2 (⟨(y 0).val - o, by omega⟩ : Fin 400) (y 1)) else s y

/-- One store of 400 whole rows from row `o` on: inside the band the payload at the row's offset in the band,
    outside it what the buffer held. -/
theorem read_band_store {sig' : RefSig} {κ : Kind} {sp : Space} (v : View sig' κ sp S10000x128 .f32) (f : v.ty.Contents (Elt F))
    {off : Fin 2 → ℕ} {o : ℕ} (inb : ∀ a : Fin 2, off a + S400x128.size a ≤ S10000x128.size a) (w : Vec F S400x128 .f32)
    (hoff : off = ![o, 0]) :
    v.read (Elt F) (v.writes (Elt F) f [(⟨Rect.unit (s := S10000x128) off S400x128.size inb, w⟩ : View.Piece (Elt F) S10000x128 .f32)])
      = bandWrite o w (v.read (Elt F) f) := by
  funext y
  rw [View.read_writes_cons_rows v f inb w [] y hoff (W := 400) rfl rfl]
  show _ = (if h : o ≤ (y 0).val ∧ (y 0).val < o + 400 then w (ValueIdx.ix2 (⟨(y 0).val - o, by omega⟩ : Fin 400) (y 1)) else v.read (Elt F) f y)
  by_cases h : o ≤ (y 0).val ∧ (y 0).val < o + 400
  · rw [dif_pos h, dif_pos h]
    refine congrArg w (funext fun a => Fin.ext ?_)
    match a with
    | ⟨0, _⟩ => rfl
    | ⟨1, _⟩ => exact Nat.sub_zero _
  · rw [dif_neg h, dif_neg h]; rfl

set_option maxHeartbeats 1000000 in
/-- Point 0: the body stores the projected features `x · W1` into their scratch, reads them back, and stores band 0 of
    the first layer. -/
theorem runA (c : Dev nD) (i : grid0.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x128 .f32) (harg9 : arg9.IsWhole)
    (arg10 : Memref sig .tc .vmem S10000x64 .f32) (harg10 : arg10.IsWhole) (arg11 : Memref sig .tc .vmem S10000x128 .f32) (harg11 : arg11.IsWhole)
    (hc1 : cond1 i) (hc2 : cond2 i) (hc3 : ¬cond3 i) (hc4 : ¬cond4 i)
    (a : Vec F S1x400x10000 .f32) (x : Vec F S10000x128 .f32) (w1 : Vec F S128x128 .f32) (b1 : Vec F S1x128 .f32) (s2 : Vec F S10000x128 .f32)
    (E : Set ℕ) (K : PUnit → sProp 𝕄) :
    iprop(owns (c : Thread nD τ) arg2 fullShare a ∗ owns (c : Thread nD τ) arg3 fullShare x ∗ owns (c : Thread nD τ) arg4 fullShare w1
        ∗ owns (c : Thread nD τ) arg5 fullShare b1 ∗ (∃ d, owns (c : Thread nD τ) arg9 fullShare d) ∗ owns (c : Thread nD τ) arg11 fullShare s2
        ∗ (iprop(owns (c : Thread nD τ) arg2 fullShare a ∗ owns (c : Thread nD τ) arg3 fullShare x ∗ owns (c : Thread nD τ) arg4 fullShare w1
            ∗ owns (c : Thread nD τ) arg5 fullShare b1 ∗ owns (c : Thread nD τ) arg9 fullShare (k0_pay1 x w1)
            ∗ owns (c : Thread nD τ) arg11 fullShare (bandWrite (400 * (i 1).val) (k0_pay2 a (k0_pay1 x w1) b1) s2)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%d9, %f9, -, H9⟩, ⟨%f11, %hf11, H11⟩, Hk⟩
  obtain rfl := harg2.eq_unread hf2; obtain rfl := harg3.eq_unread hf3; obtain rfl := harg4.eq_unread hf4
  obtain rfl := harg5.eq_unread hf5; obtain rfl := harg11.eq_unread hf11
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H9]
  · iexists _; isplitr
    swap; · iexact H9
    ipureintro
    sl_unfold_words
    rw [read_whole_store _ _ hz2]
    simp only [View.readAt_eq_ld, harg3.read_unread, harg4.read_unread,
      View.ld_unit_zero (S := S10000x128) hz2, View.ld_unit_zero (S := S128x128) hz2]
  iexists _; isplitr
  swap; · iexact H11
  ipureintro
  rw [read_band_store _ _ _ _ (k0_off1_eq i), harg11.read_unread]
  sl_unfold_words
  simp only [View.readAt_eq_ld, harg2.read_unread, harg3.read_unread, harg4.read_unread, harg5.read_unread,
    View.ld_unit_zero (S := S1x400x10000) hz3, View.ld_unit_zero (S := S10000x128) hz2, View.ld_unit_zero (S := S128x128) hz2,
    View.ld_unit_zero (S := S1x128) hz2, View.readCov_unit_zero (S := S10000x128) _ hz2]

set_option maxHeartbeats 1000000 in
/-- Points 1 … 23: the body reads the projected features from their scratch and stores one band of the first layer. -/
theorem runB (c : Dev nD) (i : grid0.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x128 .f32) (harg9 : arg9.IsWhole)
    (arg10 : Memref sig .tc .vmem S10000x64 .f32) (harg10 : arg10.IsWhole) (arg11 : Memref sig .tc .vmem S10000x128 .f32) (harg11 : arg11.IsWhole)
    (hc1 : ¬cond1 i) (hc2 : cond2 i) (hc3 : ¬cond3 i) (hc4 : ¬cond4 i)
    (a : Vec F S1x400x10000 .f32) (b1 : Vec F S1x128 .f32) (xw : Vec F S10000x128 .f32) (s2 : Vec F S10000x128 .f32)
    (E : Set ℕ) (K : PUnit → sProp 𝕄) :
    iprop(owns (c : Thread nD τ) arg2 fullShare a ∗ owns (c : Thread nD τ) arg5 fullShare b1
        ∗ owns (c : Thread nD τ) arg9 fullShare xw ∗ owns (c : Thread nD τ) arg11 fullShare s2
        ∗ (iprop(owns (c : Thread nD τ) arg2 fullShare a ∗ owns (c : Thread nD τ) arg5 fullShare b1
            ∗ owns (c : Thread nD τ) arg9 fullShare xw
            ∗ owns (c : Thread nD τ) arg11 fullShare (bandWrite (400 * (i 1).val) (k0_pay2 a xw b1) s2)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f5, %hf5, H5⟩, ⟨%f9, %hf9, H9⟩, ⟨%f11, %hf11, H11⟩, Hk⟩
  obtain rfl := harg2.eq_unread hf2; obtain rfl := harg5.eq_unread hf5
  obtain rfl := harg9.eq_unread hf9; obtain rfl := harg11.eq_unread hf11
  sl_exec (disch := first | exact hc1 | exact hc2 | exact hc3 | exact hc4)
  sl_step
  iapply Hk
  isplitl [H2]
  · iexists _; isplitr; · ipureintro; exact harg2.read_unread _
    iexact H2
  isplitl [H5]
  · iexists _; isplitr; · ipureintro; exact harg5.read_unread _
    iexact H5
  isplitl [H9]
  · iexists _; isplitr; · ipureintro; exact harg9.read_unread _
    iexact H9
  iexists _; isplitr
  swap; · iexact H11
  ipureintro
  rw [read_band_store _ _ _ _ (k0_off1_eq i), harg11.read_unread]
  simp only [View.readAt_eq_ld, harg2.read_unread, harg5.read_unread, harg9.read_unread,
    View.ld_unit_zero (S := S1x400x10000) hz3, View.ld_unit_zero (S := S10000x128) hz2, View.ld_unit_zero (S := S1x128) hz2]

set_option maxHeartbeats 1000000 in
/-- Point 24: the body stores the last band of the first layer, reads the whole first layer back and stores its
    projection `h · W2` into its scratch. -/
theorem runC (c : Dev nD) (i : grid0.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x128 .f32) (harg9 : arg9.IsWhole)
    (arg10 : Memref sig .tc .vmem S10000x64 .f32) (harg10 : arg10.IsWhole) (arg11 : Memref sig .tc .vmem S10000x128 .f32) (harg11 : arg11.IsWhole)
    (hc1 : ¬cond1 i) (hc2 : cond2 i) (hc3 : cond3 i) (hc4 : ¬cond4 i)
    (a : Vec F S1x400x10000 .f32) (b1 : Vec F S1x128 .f32) (w2 : Vec F S128x64 .f32) (xw : Vec F S10000x128 .f32) (s2 : Vec F S10000x128 .f32)
    (E : Set ℕ) (K : PUnit → sProp 𝕄) :
    iprop(owns (c : Thread nD τ) arg2 fullShare a ∗ owns (c : Thread nD τ) arg5 fullShare b1 ∗ owns (c : Thread nD τ) arg6 fullShare w2
        ∗ owns (c : Thread nD τ) arg9 fullShare xw ∗ (∃ d, owns (c : Thread nD τ) arg10 fullShare d) ∗ owns (c : Thread nD τ) arg11 fullShare s2
        ∗ (iprop(owns (c : Thread nD τ) arg2 fullShare a ∗ owns (c : Thread nD τ) arg5 fullShare b1 ∗ owns (c : Thread nD τ) arg6 fullShare w2
            ∗ owns (c : Thread nD τ) arg9 fullShare xw
            ∗ owns (c : Thread nD τ) arg10 fullShare (k0_pay3 (bandWrite (400 * (i 1).val) (k0_pay2 a xw b1) s2) w2)
            ∗ owns (c : Thread nD τ) arg11 fullShare (bandWrite (400 * (i 1).val) (k0_pay2 a xw b1) s2)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f5, %hf5, H5⟩, ⟨%f6, %hf6, H6⟩, ⟨%f9, %hf9, H9⟩, ⟨%d10, %f10, -, H10⟩, ⟨%f11, %hf11, H11⟩, Hk⟩
  obtain rfl := harg2.eq_unread hf2; obtain rfl := harg5.eq_unread hf5; obtain rfl := harg6.eq_unread hf6
  obtain rfl := harg9.eq_unread hf9; obtain rfl := harg11.eq_unread hf11
  sl_exec (disch := first | exact hc1 | exact hc2 | exact hc3 | exact hc4)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H9]
  · iexists _; isplitr; · ipureintro; exact harg9.read_unread _
    iexact H9
  isplitl [H10]
  · iexists _; isplitr
    swap; · iexact H10
    ipureintro
    rw [read_whole_store _ _ hz2]
    unfold runC.sl.v16 runC.sl.H11_1
    simp only [View.readAt_eq_ld, harg2.read_unread, harg5.read_unread, harg6.read_unread, harg9.read_unread,
      View.ld_unit_zero (S := S1x400x10000) hz3, View.ld_unit_zero (S := S10000x128) hz2, View.ld_unit_zero (S := S1x128) hz2,
      View.ld_unit_zero (S := S128x64) hz2]
    rw [read_band_store _ _ _ _ (k0_off1_eq i), harg11.read_unread]
  iexists _; isplitr
  swap; · iexact H11
  ipureintro
  unfold runC.sl.H11_1
  rw [read_band_store _ _ _ _ (k0_off1_eq i), harg11.read_unread]
  simp only [View.readAt_eq_ld, harg2.read_unread, harg5.read_unread, harg9.read_unread,
    View.ld_unit_zero (S := S1x400x10000) hz3, View.ld_unit_zero (S := S10000x128) hz2, View.ld_unit_zero (S := S1x128) hz2]

set_option maxHeartbeats 1000000 in
/-- A point of layer 1: the body reads the band of `adj[1]`, the projected first layer from its scratch and the bias
    row, and stores the band of the result over whatever the result's staging buffer held. -/
theorem runD (c : Dev nD) (i : grid0.Coords)
    (arg2 : Memref sig .tc .vmem S1x400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x128 .f32) (harg9 : arg9.IsWhole)
    (arg10 : Memref sig .tc .vmem S10000x64 .f32) (harg10 : arg10.IsWhole) (arg11 : Memref sig .tc .vmem S10000x128 .f32) (harg11 : arg11.IsWhole)
    (hc1 : ¬cond1 i) (hc2 : ¬cond2 i) (hc3 : ¬cond3 i) (hc4 : cond4 i)
    (a : Vec F S1x400x10000 .f32) (b2 : Vec F S1x64 .f32) (hw : Vec F S10000x64 .f32)
    (E : Set ℕ) (K : PUnit → sProp 𝕄) :
    iprop(owns (c : Thread nD τ) arg2 fullShare a ∗ owns (c : Thread nD τ) arg7 fullShare b2
        ∗ (∃ d, owns (c : Thread nD τ) arg8 fullShare d) ∗ owns (c : Thread nD τ) arg10 fullShare hw
        ∗ (iprop(owns (c : Thread nD τ) arg2 fullShare a ∗ owns (c : Thread nD τ) arg7 fullShare b2
            ∗ owns (c : Thread nD τ) arg8 fullShare (k0_pay4 a hw b2) ∗ owns (c : Thread nD τ) arg10 fullShare hw) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f7, %hf7, H7⟩, ⟨%d8, %f8, -, H8⟩, ⟨%f10, %hf10, H10⟩, Hk⟩
  obtain rfl := harg2.eq_unread hf2; obtain rfl := harg7.eq_unread hf7; obtain rfl := harg10.eq_unread hf10
  sl_exec (disch := first | exact hc1 | exact hc2 | exact hc3 | exact hc4)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr
    swap; · iexact H8
    ipureintro
    rw [read_whole_store _ _ hz2]
    simp only [View.readAt_eq_ld, harg2.read_unread, harg7.read_unread, harg10.read_unread,
      View.ld_unit_zero (S := S1x400x10000) hz3, View.ld_unit_zero (S := S10000x64) hz2, View.ld_unit_zero (S := S1x64) hz2]
  iexists _; isplitr; · ipureintro; exact harg10.read_unread _
  iexact H10

/-! ## One step of the first layer's invariant -/

/-- If the rows below `400 t` are the first layer's, then after point `t` of layer 0 has overwritten band `t` with
    what it computes from its block of `adj[0]`, the rows below `400 (t + 1)` are. -/
theorem band_step (c : Dev nD) (t : Fin cfg0.N) (ht : t.val < 25) (s2 : Vec F S10000x128 .f32)
    (hs : ∀ y : S10000x128.Idx, (y 0).val < 400 * t.val → s2 y = H m c y) :
    ∀ y : S10000x128.Idx, (y 0).val < 400 * (t.val + 1) →
      bandWrite (400 * ((grid0.coords t) 1).val) (k0_pay2 (adjB m c t) (XW m c) (b1B m c t)) s2 y = H m c y := by
  intro y hy
  have hb : ((grid0.coords t) 1).val = t.val := (band_eq t).trans (Nat.mod_eq_of_lt ht)
  rw [hb]
  show (if h : 400 * t.val ≤ (y 0).val ∧ (y 0).val < 400 * t.val + 400 then
      k0_pay2 (adjB m c t) (XW m c) (b1B m c t) (ValueIdx.ix2 (⟨(y 0).val - 400 * t.val, by omega⟩ : Fin 400) (y 1)) else s2 y) = _
  by_cases h : 400 * t.val ≤ (y 0).val ∧ (y 0).val < 400 * t.val + 400
  · rw [dif_pos h]
    have e : bandPt (y 0) = t := Fin.ext (by show (y 0).val / 400 = t.val; omega)
    show _ = k0_pay2 (adjB m c (bandPt (y 0))) (XW m c) (b1B m c (bandPt (y 0)))
      (ValueIdx.ix2 (⟨(y 0).val % 400, Nat.mod_lt _ (by omega)⟩ : Fin 400) (y 1))
    rw [e]
    exact congrArg (fun p : Fin 400 => k0_pay2 (adjB m c t) (XW m c) (b1B m c t) (ValueIdx.ix2 p (y 1)))
      (Fin.ext (by show (y 0).val - 400 * t.val = (y 0).val % 400; omega))
  · rw [dif_neg h]; exact hs y (by omega)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

theorem leaves_in (c : Dev nD) (t : Fin cfg0.N) (w : Fin 7) (hw : w.val < 6) :
    (dats m 0 c).leavesExact w t = owns (c : Thread nD τ) ((cfg0.win w).stage (cfg0.slots t w)) fullShare ((dats m 0 c).after w t) := by
  unfold Dat.leavesExact; rw [live_in w hw t]

set_option maxHeartbeats 4800000 in
/-- The body at any point. The inputs' buffers hold their blocks; the point's number says which branches run; the
    invariant hands over the scratch buffers with what is known of them and takes them back with what the point added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_castSucc, Phi_succ]
  rw [leaves_in m c t 0 (by decide), leaves_in m c t 1 (by decide), leaves_in m c t 2 (by decide), leaves_in m c t 3 (by decide),
    leaves_in m c t 4 (by decide), leaves_in m c t 5 (by decide), after0, after1, after2, after3, after4, after5]
  unfold PhiT
  have hN : t.val < 50 := lt_of_lt_of_eq t.isLt (show cfg0.N = 50 from N_0)
  by_cases hl : t.val < 25
  · -- layer 0: the result's buffer is handed back as found
    rw [Dat.leavesExact_idle (dats m 0 c) 6 t (idle6 t hl) (noFlush6 t hl)]
    have hc2 : cond2 (grid0.coords t) := (hcond2 t).mpr hl
    have hc4 : ¬cond4 (grid0.coords t) := fun h => by have := (hcond4 t).mp h; omega
    by_cases h0 : t.val = 0
    · have hc1 : cond1 (grid0.coords t) := (hcond1 t).mpr h0
      have hc3 : ¬cond3 (grid0.coords t) := fun h => by have := (hcond3 t).mp h; omega
      have hXW : k0_pay1 (xB m c t) (w1B m c t) = XW m c := by
        rw [show t = pt 0 (by omega) from Fin.ext h0]; rfl
      iintro ⟨⟨⟨⟨%s0, %hp0, HS0⟩, ⟨%s1, %hp1, HS1⟩, ⟨%s2, %hp2, HS2⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) (ms0 t) (hs0 t) (ms1 t) (hs1 t) (ms2 t) (hs2 t) (ms3 t) (hs3 t) (ms4 t) (hs4 t) (ms5 t) (hs5 t) (ms6 t) (hs6 t)
        scXW (Memref.isWhole_whole _) scHW (Memref.isWhole_whole _) scH (Memref.isWhole_whole _) hc1 hc2 hc3 hc4
        (adjB m c t) (xB m c t) (w1B m c t) (b1B m c t) s2 Set.univ _)
      isplitl [H0]; · iexact H0
      isplitl [H1]; · iexact H1
      isplitl [H2]; · iexact H2
      isplitl [H3]; · iexact H3
      isplitl [HS0]; · iexists _; iexact HS0
      isplitl [HS2]; · iexact HS2
      iintro ⟨H0, H1, H2, H3, HS0, HS2⟩
      isplitl [HS0 HS1 HS2 Hg]
      · isplitr [Hg]
        · isplitl [HS0]
          · iexists _; isplitr
            swap; · iexact HS0
            ipureintro; intro _; exact hXW.symm
          isplitl [HS1]
          · iexists _; isplitr
            swap; · iexact HS1
            ipureintro; intro h; omega
          iexists _; isplitr
          swap; · iexact HS2
          ipureintro; rw [hXW]; exact band_step m c t hl s2 hp2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc1 : ¬cond1 (grid0.coords t) := fun h => h0 ((hcond1 t).mp h)
      by_cases h24 : t.val = 24
      · have hc3 : cond3 (grid0.coords t) := (hcond3 t).mpr h24
        iintro ⟨⟨⟨⟨%s0, %hp0, HS0⟩, ⟨%s1, %hp1, HS1⟩, ⟨%s2, %hp2, HS2⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := hp0 (by omega)
        have hfull : bandWrite (400 * ((grid0.coords t) 1).val) (k0_pay2 (adjB m c t) (XW m c) (b1B m c t)) s2 = H m c :=
          funext fun y => band_step m c t hl s2 hp2 y (by have hy : (y 0).val < 10000 := (y 0).isLt; omega)
        iapply (runC c (grid0.coords t) (ms0 t) (hs0 t) (ms1 t) (hs1 t) (ms2 t) (hs2 t) (ms3 t) (hs3 t) (ms4 t) (hs4 t) (ms5 t) (hs5 t) (ms6 t) (hs6 t)
          scXW (Memref.isWhole_whole _) scHW (Memref.isWhole_whole _) scH (Memref.isWhole_whole _) hc1 hc2 hc3 hc4
          (adjB m c t) (b1B m c t) (w2B m c t) (XW m c) s2 Set.univ _)
        isplitl [H0]; · iexact H0
        isplitl [H3]; · iexact H3
        isplitl [H4]; · iexact H4
        isplitl [HS0]; · iexact HS0
        isplitl [HS1]; · iexists _; iexact HS1
        isplitl [HS2]; · iexact HS2
        iintro ⟨H0, H3, H4, HS0, HS1, HS2⟩
        isplitl [HS0 HS1 HS2 Hg]
        · isplitr [Hg]
          · isplitl [HS0]
            · iexists _; isplitr
              swap; · iexact HS0
              ipureintro; intro _; rfl
            isplitl [HS1]
            · iexists _; isplitr
              swap; · iexact HS1
              ipureintro; intro _; rw [hfull, show t = pt 24 (by omega) from Fin.ext h24]; rfl
            iexists _; isplitr
            swap; · iexact HS2
            ipureintro; exact band_step m c t hl s2 hp2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · have hc3 : ¬cond3 (grid0.coords t) := fun h => h24 ((hcond3 t).mp h)
        iintro ⟨⟨⟨⟨%s0, %hp0, HS0⟩, ⟨%s1, %hp1, HS1⟩, ⟨%s2, %hp2, HS2⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := hp0 (by omega)
        iapply (runB c (grid0.coords t) (ms0 t) (hs0 t) (ms1 t) (hs1 t) (ms2 t) (hs2 t) (ms3 t) (hs3 t) (ms4 t) (hs4 t) (ms5 t) (hs5 t) (ms6 t) (hs6 t)
          scXW (Memref.isWhole_whole _) scHW (Memref.isWhole_whole _) scH (Memref.isWhole_whole _) hc1 hc2 hc3 hc4
          (adjB m c t) (b1B m c t) (XW m c) s2 Set.univ _)
        isplitl [H0]; · iexact H0
        isplitl [H3]; · iexact H3
        isplitl [HS0]; · iexact HS0
        isplitl [HS2]; · iexact HS2
        iintro ⟨H0, H3, HS0, HS2⟩
        isplitl [HS0 HS1 HS2 Hg]
        · isplitr [Hg]
          · isplitl [HS0]
            · iexists _; isplitr
              swap; · iexact HS0
              ipureintro; intro _; rfl
            isplitl [HS1]
            · iexists _; isplitr
              swap; · iexact HS1
              ipureintro; intro h; omega
            iexists _; isplitr
            swap; · iexact HS2
            ipureintro; exact band_step m c t hl s2 hp2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · -- layer 1: one band of the result
    have hl' : 25 ≤ t.val := by omega
    rw [show (dats m 0 c).leavesExact 6 t = owns (c : Thread nD τ) (ms6 t) fullShare ((dats m 0 c).after 6 t) from by
      unfold Dat.leavesExact; rw [live6 t hl'], after6]
    have hc1 : ¬cond1 (grid0.coords t) := fun h => by have := (hcond1 t).mp h; omega
    have hc2 : ¬cond2 (grid0.coords t) := fun h => hl ((hcond2 t).mp h)
    have hc3 : ¬cond3 (grid0.coords t) := fun h => by have := (hcond3 t).mp h; omega
    have hc4 : cond4 (grid0.coords t) := (hcond4 t).mpr hl'
    iintro ⟨⟨⟨⟨%s0, %hp0, HS0⟩, ⟨%s1, %hp1, HS1⟩, ⟨%s2, %hp2, HS2⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hp1 hl'
    iapply (runD c (grid0.coords t) (ms0 t) (hs0 t) (ms1 t) (hs1 t) (ms2 t) (hs2 t) (ms3 t) (hs3 t) (ms4 t) (hs4 t) (ms5 t) (hs5 t) (ms6 t) (hs6 t)
      scXW (Memref.isWhole_whole _) scHW (Memref.isWhole_whole _) scH (Memref.isWhole_whole _) hc1 hc2 hc3 hc4
      (adjB m c t) (b2B m c t) (HW m c) Set.univ _)
    isplitl [H0]; · iexact H0
    isplitl [H5]; · iexact H5
    isplitl [H6]; · iexists _; iexact H6
    isplitl [HS1]; · iexact HS1
    iintro ⟨H0, H5, H6, HS1⟩
    isplitl [HS0 HS1 HS2 Hg]
    · isplitr [Hg]
      · isplitl [HS0]
        · iexists _; isplitr
          swap; · iexact HS0
          ipureintro; intro _; exact hp0 (by omega)
        isplitl [HS1]
        · iexists _; isplitr
          swap; · iexact HS1
          ipureintro; intro _; rfl
        iexists _; isplitr
        swap; · iexact HS2
        ipureintro; intro y _; exact hp2 y (by have hy : (y 0).val < 10000 := (y 0).isLt; omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratch yet. -/
theorem hin (c : Dev nD) : Pipeline.ΦA spec0 c ⊢ (dats m 0 c).Φ 0 := by
  rw [show (dats m 0 c).Φ 0 = PhiT m c 0 from rfl, PhiA_eq]
  unfold PhiT
  iintro ⟨⟨⟨%s0, HS0⟩, ⟨%s1, HS1⟩, ⟨%s2, HS2⟩⟩, Hg⟩
  isplitr [Hg]
  · isplitl [HS0]
    · iexists s0; isplitr; · ipureintro; intro h; omega
      iexact HS0
    isplitl [HS1]
    · iexists s1; isplitr; · ipureintro; intro h; omega
      iexact HS1
    iexists s2; isplitr; · ipureintro; intro y h; omega
    iexact HS2
  iexact Hg

/-- After the last point the invariant gives the scratch buffers back, what they hold forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨⟨⟨%s0, -, HS0⟩, ⟨%s1, -, HS1⟩, ⟨%s2, -, HS2⟩⟩, Hg⟩
  isplitr [Hg]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has each array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run with the result array named as well: at the end the result holds what the write-backs of the proof
    data leave (each argument array read off the launch's post as the frame does). -/
theorem run_named : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.Kernel.Body

end
-- ==== Proof.PayValue.lean ====
/-
  The kernel body's four stored values read at an index, at the ideal instance: each matrix product into a zero
  accumulator is the plain sum over its contracted axis, the bias row is broadcast down the rows, and the ReLU is the
  maximum with the zero word.
-/
import proofs.«100692_g74002286510483_cont_9to1_m_578_16_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.PayValue

open Idealize.ShloMosaic Idealize.ShloMosaic.ValueIdx Cert.KernelIdeal Cert.KernelIdeal.Gen

/-! ## `x · W1`: where the product's record sends a result index and a contraction index -/

/-- The left operand's row is the result's row. -/
theorem lhs_xw1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- The left operand's column is the contracted coordinate. -/
theorem lhs_xw1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contracted coordinate. -/
theorem rhs_xw1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the result's column. -/
theorem rhs_xw1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product `a · b` of a `[10000, 128]` by a `[128, 128]` matrix into the zero accumulator, entry `(r, j)`: the sum
    over the shared axis. -/
theorem matmul_xw1_apply (a : FVec Ideal S10000x128 .f32) (b : FVec Ideal S128x128 .f32) (r : Fin 10000) (j : Fin 128) :
    matmul dot_S10000x128_S128x128_S10000x128_1_0_0_1_n_n none a b (constant (F := Ideal) S10000x128 .f32 0x00000000#32) (ix2 r j)
      = ∑ k : Fin 128, a (ix2 r k) * b (ix2 k j) := by
  refine (Ideal.matmul_constant_zero_apply dot_S10000x128_S128x128_S10000x128_1_0_0_1_n_n none a b (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j)
      ((contrEquiv1 dot_S10000x128_S128x128_S10000x128_1_0_0_1_n_n 128 rfl rfl).symm k) = ix2 r k :=
    funext fun c => Fin.ext (by
      match c with
      | ⟨0, _⟩ => exact lhs_xw1_0 _ _
      | ⟨1, _⟩ => exact (lhs_xw1_1 _ _).trans hk)
  have er : dot_S10000x128_S128x128_S10000x128_1_0_0_1_n_n.rhsIdx (ix2 r j)
      ((contrEquiv1 dot_S10000x128_S128x128_S10000x128_1_0_0_1_n_n 128 rfl rfl).symm k) = ix2 k j :=
    funext fun c => Fin.ext (by
      match c with
      | ⟨0, _⟩ => exact (rhs_xw1_0 _ _).trans hk
      | ⟨1, _⟩ => exact rhs_xw1_1 _ _)
  rw [el, er]

/-- The projected features `x · W1`, entry `(r, j)`. -/
theorem pay1_apply (v16 : Vec Ideal S10000x128 .f32) (v17 : Vec Ideal S128x128 .f32) (r : Fin 10000) (j : Fin 128) :
    k0_pay1 (F := Ideal) v16 v17 (ix2 r j) = ∑ k : Fin 128, v16 (ix2 r k) * v17 (ix2 k j) := by
  unfold k0_pay1
  refine (congrFun (shapeCast_self _ shapeCasts_S10000x128_S10000x128) (ix2 r j)).trans ?_
  exact matmul_xw1_apply v16 v17 r j

/-! ## The band of the adjacency read as a matrix, and the bias row broadcast down the rows -/

/-- The band `[1, 400, 10000]` read as a `[400, 10000]` matrix: entry `(p, k)` is entry `(0, p, k)`, the two having the same
    row-major position. -/
theorem band_apply (v : Vec Ideal S1x400x10000 .f32) (p : Fin 400) (k : Fin 10000) :
    shapeCast S400x10000 v shapeCasts_S1x400x10000_S400x10000 (ix2 p k) = v (ix3 (0 : Fin 1) p k) :=
  shapeCast_apply v shapeCasts_S1x400x10000_S400x10000 (ix2 p k) (ix3 (0 : Fin 1) p k) (by
    rewrite [Shape.rowMajor_val_three, Shape.rowMajor_val_two]
    show (0 * 400 + p.val) * 10000 + k.val = p.val * 10000 + k.val
    omega)

/-- The bias row `[1, 128]` broadcast to `[400, 128]`: every row reads the one row. -/
theorem bias1_apply (b : Vec Ideal S1x128 .f32) (p : Fin 400) (j : Fin 128) :
    broadcastTo S400x128 (shapeCast S1x128 b shapeCasts_S1x128_S1x128) broadcasts_S1x128_S400x128 (ix2 p j) = b (ix2 (0 : Fin 1) j) := by
  rw [shapeCast_self]
  exact broadcastTo_apply b broadcasts_S1x128_S400x128 (ix2 p j) (ix2 (0 : Fin 1) j) (fun a => match a with
    | ⟨0, _⟩ => by show 0 = if (1 : Nat) = 1 then 0 else p.val; rw [if_pos rfl]
    | ⟨1, _⟩ => by show j.val = if (128 : Nat) = 1 then 0 else j.val; rw [if_neg (by decide)])

/-- The bias row `[1, 64]` broadcast to `[400, 64]`: every row reads the one row. -/
theorem bias2_apply (b : Vec Ideal S1x64 .f32) (p : Fin 400) (c : Fin 64) :
    broadcastTo S400x64 (shapeCast S1x64 b shapeCasts_S1x64_S1x64) broadcasts_S1x64_S400x64 (ix2 p c) = b (ix2 (0 : Fin 1) c) := by
  rw [shapeCast_self]
  exact broadcastTo_apply b broadcasts_S1x64_S400x64 (ix2 p c) (ix2 (0 : Fin 1) c) (fun a => match a with
    | ⟨0, _⟩ => by show 0 = if (1 : Nat) = 1 then 0 else p.val; rw [if_pos rfl]
    | ⟨1, _⟩ => by show c.val = if (64 : Nat) = 1 then 0 else c.val; rw [if_neg (by decide)])

/-! ## `adj[0] · y1` over one band: the record's coordinates -/

/-- The left operand's row is the result's row. -/
theorem lhs_ay1_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
/-- The left operand's column is the contracted coordinate. -/
theorem lhs_ay1_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row is the contracted coordinate. -/
theorem rhs_ay1_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's column is the result's column. -/
theorem rhs_ay1_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a `[400, 10000]` by a `[10000, 128]` matrix into the zero accumulator, entry `(p, j)`: the sum over
    the shared axis, which is never expanded. -/
theorem matmul_ay1_apply (a : FVec Ideal S400x10000 .f32) (b : FVec Ideal S10000x128 .f32) (p : Fin 400) (j : Fin 128) :
    matmul dot_S400x10000_S10000x128_S400x128_1_0_0_1_n_n none a b (constant (F := Ideal) S400x128 .f32 0x00000000#32) (ix2 p j)
      = ∑ k : Fin 10000, a (ix2 p k) * b (ix2 k j) := by
  refine (Ideal.matmul_constant_zero_apply dot_S400x10000_S10000x128_S400x128_1_0_0_1_n_n none a b (ix2 p j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p j)
      ((contrEquiv1 dot_S400x10000_S10000x128_S400x128_1_0_0_1_n_n 10000 rfl rfl).symm k) = ix2 p k :=
    funext fun c => Fin.ext (by
      match c with
      | ⟨0, _⟩ => exact lhs_ay1_0 _ _
      | ⟨1, _⟩ => exact (lhs_ay1_1 _ _).trans hk)
  have er : dot_S400x10000_S10000x128_S400x128_1_0_0_1_n_n.rhsIdx (ix2 p j)
      ((contrEquiv1 dot_S400x10000_S10000x128_S400x128_1_0_0_1_n_n 10000 rfl rfl).symm k) = ix2 k j :=
    funext fun c => Fin.ext (by
      match c with
      | ⟨0, _⟩ => exact (rhs_ay1_0 _ _).trans hk
      | ⟨1, _⟩ => exact rhs_ay1_1 _ _)
  rw [el, er]

/-- One band of the first layer: the band of `adj[0]` against the projected features, plus the bias row, through the ReLU. -/
theorem pay2_apply (v16 : Vec Ideal S1x400x10000 .f32) (v18 : Vec Ideal S10000x128 .f32) (v20 : Vec Ideal S1x128 .f32)
    (p : Fin 400) (j : Fin 128) :
    k0_pay2 (F := Ideal) v16 v18 v20 (ix2 p j)
      = max ((∑ k : Fin 10000, v16 (ix3 (0 : Fin 1) p k) * v18 (ix2 k j)) + v20 (ix2 (0 : Fin 1) j)) (Ideal.ofBits .f32 0x00000000#32) := by
  unfold k0_pay2
  refine (congrFun (shapeCast_self _ shapeCasts_S400x128_S400x128) (ix2 p j)).trans ?_
  refine (maximumf_apply _ _ (ix2 p j)).trans (congrArg₂ max ((addf_apply _ _ (ix2 p j)).trans (congrArg₂ (· + ·) ?_ ?_)) rfl)
  · refine (matmul_ay1_apply _ v18 p j).trans (Finset.sum_congr rfl fun k _ => ?_)
    rw [band_apply]
  · exact bias1_apply v20 p j

/-! ## `h · W2`: the record's coordinates -/

/-- The left operand's row is the result's row. -/
theorem lhs_hw2_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
/-- The left operand's column is the contracted coordinate. -/
theorem lhs_hw2_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the contracted coordinate. -/
theorem rhs_hw2_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the result's column. -/
theorem rhs_hw2_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The product of a `[10000, 128]` by a `[128, 64]` matrix into the zero accumulator, entry `(r, c)`: the sum over the
    shared axis. -/
theorem matmul_hw2_apply (a : FVec Ideal S10000x128 .f32) (b : FVec Ideal S128x64 .f32) (r : Fin 10000) (c : Fin 64) :
    matmul dot_S10000x128_S128x64_S10000x64_1_0_0_1_n_n none a b (constant (F := Ideal) S10000x64 .f32 0x00000000#32) (ix2 r c)
      = ∑ k : Fin 128, a (ix2 r k) * b (ix2 k c) := by
  refine (Ideal.matmul_constant_zero_apply dot_S10000x128_S128x64_S10000x64_1_0_0_1_n_n none a b (ix2 r c)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r c)
      ((contrEquiv1 dot_S10000x128_S128x64_S10000x64_1_0_0_1_n_n 128 rfl rfl).symm k) = ix2 r k :=
    funext fun a' => Fin.ext (by
      match a' with
      | ⟨0, _⟩ => exact lhs_hw2_0 _ _
      | ⟨1, _⟩ => exact (lhs_hw2_1 _ _).trans hk)
  have er : dot_S10000x128_S128x64_S10000x64_1_0_0_1_n_n.rhsIdx (ix2 r c)
      ((contrEquiv1 dot_S10000x128_S128x64_S10000x64_1_0_0_1_n_n 128 rfl rfl).symm k) = ix2 k c :=
    funext fun a' => Fin.ext (by
      match a' with
      | ⟨0, _⟩ => exact (rhs_hw2_0 _ _).trans hk
      | ⟨1, _⟩ => exact rhs_hw2_1 _ _)
  rw [el, er]

/-- The hidden features projected `h · W2`, entry `(r, c)`. -/
theorem pay3_apply (v16 : Vec Ideal S10000x128 .f32) (v17 : Vec Ideal S128x64 .f32) (r : Fin 10000) (c : Fin 64) :
    k0_pay3 (F := Ideal) v16 v17 (ix2 r c) = ∑ k : Fin 128, v16 (ix2 r k) * v17 (ix2 k c) := by
  unfold k0_pay3
  refine (congrFun (shapeCast_self _ shapeCasts_S10000x64_S10000x64) (ix2 r c)).trans ?_
  exact matmul_hw2_apply v16 v17 r c

/-! ## `adj[1] · y2` over one band: the record's coordinates -/

/-- The left operand's row is the result's row. -/
theorem lhs_ay2_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl
/-- The left operand's column is the contracted coordinate. -/
theorem lhs_ay2_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
/-- The right operand's row is the contracted coordinate. -/
theorem rhs_ay2_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
/-- The right operand's column is the result's column. -/
theorem rhs_ay2_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

/-- The product of a `[400, 10000]` by a `[10000, 64]` matrix into the zero accumulator, entry `(p, c)`: the sum over the
    shared axis, which is never expanded. -/
theorem matmul_ay2_apply (a : FVec Ideal S400x10000 .f32) (b : FVec Ideal S10000x64 .f32) (p : Fin 400) (c : Fin 64) :
    matmul dot_S400x10000_S10000x64_S400x64_1_0_0_1_n_n none a b (constant (F := Ideal) S400x64 .f32 0x00000000#32) (ix2 p c)
      = ∑ k : Fin 10000, a (ix2 p k) * b (ix2 k c) := by
  refine (Ideal.matmul_constant_zero_apply dot_S400x10000_S10000x64_S400x64_1_0_0_1_n_n none a b (ix2 p c)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p c)
      ((contrEquiv1 dot_S400x10000_S10000x64_S400x64_1_0_0_1_n_n 10000 rfl rfl).symm k) = ix2 p k :=
    funext fun a' => Fin.ext (by
      match a' with
      | ⟨0, _⟩ => exact lhs_ay2_0 _ _
      | ⟨1, _⟩ => exact (lhs_ay2_1 _ _).trans hk)
  have er : dot_S400x10000_S10000x64_S400x64_1_0_0_1_n_n.rhsIdx (ix2 p c)
      ((contrEquiv1 dot_S400x10000_S10000x64_S400x64_1_0_0_1_n_n 10000 rfl rfl).symm k) = ix2 k c :=
    funext fun a' => Fin.ext (by
      match a' with
      | ⟨0, _⟩ => exact (rhs_ay2_0 _ _).trans hk
      | ⟨1, _⟩ => exact rhs_ay2_1 _ _)
  rw [el, er]

/-- One band of the result: the band of `adj[1]` against the projected hidden features, plus the bias row. -/
theorem pay4_apply (v16 : Vec Ideal S1x400x10000 .f32) (v18 : Vec Ideal S10000x64 .f32) (v20 : Vec Ideal S1x64 .f32)
    (p : Fin 400) (c : Fin 64) :
    k0_pay4 (F := Ideal) v16 v18 v20 (ix2 p c)
      = (∑ k : Fin 10000, v16 (ix3 (0 : Fin 1) p k) * v18 (ix2 k c)) + v20 (ix2 (0 : Fin 1) c) := by
  unfold k0_pay4
  refine (addf_apply _ _ (ix2 p c)).trans (congrArg₂ (· + ·) ?_ ?_)
  · refine (matmul_ay2_apply _ v18 p c).trans (Finset.sum_congr rfl fun k _ => ?_)
    rw [band_apply]
  · exact bias2_apply v20 p c

end Cert.KernelIdeal.PayValue

end
-- ==== Proof.Spec.lean ====
/-
  The two-layer graph convolution both programs compute, as one function of the six argument arrays over the
  extended reals, index by index:

    xw   r j = Σ_{k < 128}   x[r, k] · W1[k, j]                          (the projected features)
    hid  r j = max (Σ_{k < 10000} adj[0, r, k] · xw k j + b1[j]) 0        (the first layer after its ReLU)
    hw   r c = Σ_{k < 128}   hid r k · W2[k, c]                           (the hidden features projected)
    out  r c = Σ_{k < 10000} adj[1, r, k] · hw k c + b2[c]                (the second layer)

  Every contraction runs over its whole axis in both programs, so no sum is ever split or reordered: the two programs
  are this function term for term, and no law of the extended reals beyond reading a matrix product as a sum is used.
  The zero the ReLU compares with is kept as its word, the same word in both programs.
-/
import Idealize.ShloMosaic.PureOps.Ideal
import Idealize.ShloMosaic.Lib.ValueIdx

noncomputable section

namespace Cert.Spec

open Idealize.ShloMosaic Idealize.ShloMosaic.ValueIdx

abbrev SX : Shape := ⟨2, ![10000, 128]⟩
abbrev SAdj : Shape := ⟨3, ![2, 10000, 10000]⟩
abbrev SW1 : Shape := ⟨2, ![128, 128]⟩
abbrev SB1 : Shape := ⟨1, ![128]⟩
abbrev SW2 : Shape := ⟨2, ![128, 64]⟩
abbrev SB2 : Shape := ⟨1, ![64]⟩
abbrev SOut : Shape := ⟨2, ![10000, 64]⟩

/-- The projected features: row `r` of `x` against column `j` of `W1`. -/
def xw (x : SX.Idx → EReal) (w1 : SW1.Idx → EReal) (r : Fin 10000) (j : Fin 128) : EReal :=
  ∑ k : Fin 128, x (ix2 r k) * w1 (ix2 k j)

/-- The first layer: row `r` of `adj[0]` against column `j` of the projected features, plus the bias, through the ReLU. -/
def hid (x : SX.Idx → EReal) (adj : SAdj.Idx → EReal) (w1 : SW1.Idx → EReal) (b1 : SB1.Idx → EReal)
    (r : Fin 10000) (j : Fin 128) : EReal :=
  max ((∑ k : Fin 10000, adj (ix3 (0 : Fin 2) r k) * xw x w1 k j) + b1 (ix1 j)) (Ideal.ofBits .f32 0x00000000#32)

/-- The hidden features projected: row `r` of the first layer against column `c` of `W2`. -/
def hw (x : SX.Idx → EReal) (adj : SAdj.Idx → EReal) (w1 : SW1.Idx → EReal) (b1 : SB1.Idx → EReal) (w2 : SW2.Idx → EReal)
    (r : Fin 10000) (c : Fin 64) : EReal :=
  ∑ k : Fin 128, hid x adj w1 b1 r k * w2 (ix2 k c)

/-- The result: row `r` of `adj[1]` against column `c` of the projected hidden features, plus the bias. -/
def out (x : SX.Idx → EReal) (adj : SAdj.Idx → EReal) (w1 : SW1.Idx → EReal) (b1 : SB1.Idx → EReal) (w2 : SW2.Idx → EReal)
    (b2 : SB2.Idx → EReal) (i : SOut.Idx) : EReal :=
  (∑ k : Fin 10000, adj (ix3 (1 : Fin 2) (i 0) k) * hw x adj w1 b1 w2 k (i 1)) + b2 (ix1 (i 1))

end Cert.Spec

end
-- ==== Proof.KernelValue.lean ====
/-
  The idealized kernel's result array after the run is the two-layer graph convolution of the argument arrays.

  Point `25 + b` writes back band `b` of the result (rows `400 b … 400 b + 399`); the 25 bands tile the array. Each
  band is the band of `adj[1]` against the projected first layer plus the bias row; the projected first layer, the
  first layer and the projected features are what the scratch buffers hold, each a plain sum over its whole
  contracted axis, so each is the specification's function of the argument arrays.
-/
import proofs.«100692_g74002286510483_cont_9to1_m_578_16_alg».proof.Proof.Data
import proofs.«100692_g74002286510483_cont_9to1_m_578_16_alg».proof.Proof.PayValue
import proofs.«100692_g74002286510483_cont_9to1_m_578_16_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Carried

variable (m : (ℓ : Loc nD τ sig) → Buf (Elt Ideal) ℓ)

/-- The specification at core `c`'s argument arrays as launched. -/
abbrev specOut (c : Dev nD) : S10000x64.Idx → EReal :=
  Cert.Spec.out (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-! ## The windows' index maps, decided over the grid

Point `t` is layer `t / 25`, band `t % 25`. The adjacency window sits at block `(t / 25, t % 25, 0)`; the five
whole-array windows at block zero; the result window, on layer 1, at block `(t - 25, 0)`. -/

theorem idx_adj : ∀ t : Fin cfg0.N, win0_0.index t (0 : Fin 3) = t.val / 25 ∧ win0_0.index t (1 : Fin 3) = t.val % 25
    ∧ win0_0.index t (2 : Fin 3) = 0 :=
  (by decide +kernel : ∀ t : Fin grid0.N, _)

theorem idx_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_out : ∀ t : Fin cfg0.N, (25 ≤ t.val → win0_6.index t (0 : Fin 2) = t.val - 25) ∧ win0_6.index t (1 : Fin 2) = 0 :=
  (by decide +kernel : ∀ t : Fin grid0.N, _)

/-- The grid has 50 points. -/
theorem lt50 (t : Fin cfg0.N) : t.val < 50 := lt_of_lt_of_eq t.isLt (show cfg0.N = 50 from N_0)

/-! ## The blocks read at explicit coordinates -/

/-- The adjacency block of point `t`: row `p` of band `t % 25` of layer `t / 25`. -/
theorem adjB_at (c : Dev nD) (t : Fin cfg0.N) (p : Fin 400) (k : Fin 10000) :
    adjB m c t (ix3 (0 : Fin 1) p k)
      = (m ((c.tc : Thread nD τ).loc main_arg1) : S2x10000x10000.Idx → EReal)
          (ix3 (⟨t.val / 25, by have := lt50 t; omega⟩ : Fin 2)
            (⟨400 * (t.val % 25) + p.val, by have := p.isLt; omega⟩ : Fin 10000) k) := by
  obtain ⟨e0, e1, e2⟩ := idx_adj t
  unfold adjB iblk
  rw [View.read_apply]
  show V m c main_arg1 _ = _
  rw [V_main_arg1]
  refine congrArg _ (funext fun a => Fin.ext ?_)
  match a with
  | ⟨0, _⟩ => show win0_0.index t (0 : Fin 3) * 1 + 1 * 0 = t.val / 25; omega
  | ⟨1, _⟩ => show win0_0.index t (1 : Fin 3) * 400 + 1 * p.val = 400 * (t.val % 25) + p.val; omega
  | ⟨2, _⟩ => show win0_0.index t (2 : Fin 3) * 10000 + 1 * k.val = k.val; omega

/-- The features window holds the whole of `x`. -/
theorem xB_at (c : Dev nD) (t : Fin cfg0.N) (r : Fin 10000) (k : Fin 128) :
    xB m c t (ix2 r k) = (m ((c.tc : Thread nD τ).loc main_arg0) : S10000x128.Idx → EReal) (ix2 r k) := by
  obtain ⟨e0, e1, -⟩ := idx_whole t
  unfold xB iblk
  rw [View.read_apply]
  show V m c main_arg0 _ = _
  rw [V_main_arg0]
  refine congrArg _ (funext fun a => Fin.ext ?_)
  match a with
  | ⟨0, _⟩ => show win0_1.index t (0 : Fin 2) * 10000 + 1 * r.val = r.val; omega
  | ⟨1, _⟩ => show win0_1.index t (1 : Fin 2) * 128 + 1 * k.val = k.val; omega

/-- The first weights' window holds the whole of `W1`. -/
theorem w1B_at (c : Dev nD) (t : Fin cfg0.N) (k : Fin 128) (j : Fin 128) :
    w1B m c t (ix2 k j) = (m ((c.tc : Thread nD τ).loc main_arg2) : S128x128.Idx → EReal) (ix2 k j) := by
  obtain ⟨-, -, e0, e1, -⟩ := idx_whole t
  unfold w1B iblk
  rw [View.read_apply]
  show V m c main_arg2 _ = _
  rw [V_main_arg2]
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The second weights' window holds the whole of `W2`. -/
theorem w2B_at (c : Dev nD) (t : Fin cfg0.N) (k : Fin 128) (j : Fin 64) :
    w2B m c t (ix2 k j) = (m ((c.tc : Thread nD τ).loc main_arg4) : S128x64.Idx → EReal) (ix2 k j) := by
  obtain ⟨-, -, -, -, -, -, e0, e1, -⟩ := idx_whole t
  unfold w2B iblk
  rw [View.read_apply]
  show V m c main_arg4 _ = _
  rw [V_main_arg4]
  refine congrArg _ (funext fun a => Fin.ext ?_)
  match a with
  | ⟨0, _⟩ => show win0_4.index t (0 : Fin 2) * 128 + 1 * k.val = k.val; omega
  | ⟨1, _⟩ => show win0_4.index t (1 : Fin 2) * 64 + 1 * j.val = j.val; omega

/-- The first bias as the region finds it: the host's reshape of `b1` to one row. -/
theorem V_b1 (c : Dev nD) :
    (V m c main_v0 : S1x128.Idx → EReal) = shapeCast _ (m ((c.tc : Thread nD τ).loc main_arg3) : S128.Idx → EReal) shapeCasts_S128_S1x128 := by
  dsimp only [Gen.V, Gen.hostOps0]
  after_results
  rfl

/-- The second bias as the region finds it: the host's reshape of `b2` to one row. -/
theorem V_b2 (c : Dev nD) :
    (V m c main_v1 : S1x64.Idx → EReal) = shapeCast _ (m ((c.tc : Thread nD τ).loc main_arg5) : S64.Idx → EReal) shapeCasts_S64_S1x64 := by
  dsimp only [Gen.V, Gen.hostOps0]
  after_results
  rfl

/-- The first bias window's one row is `b1`. -/
theorem b1B_at (c : Dev nD) (t : Fin cfg0.N) (j : Fin 128) :
    b1B m c t (ix2 (0 : Fin 1) j) = (m ((c.tc : Thread nD τ).loc main_arg3) : S128.Idx → EReal) (ix1 j) := by
  obtain ⟨-, -, -, -, e0, e1, -⟩ := idx_whole t
  unfold b1B iblk
  rw [View.read_apply]
  show (V m c main_v0 : S1x128.Idx → EReal) _ = _
  rw [V_b1]
  refine shapeCast_apply _ shapeCasts_S128_S1x128 _ (ix1 j) ?_
  rewrite [Shape.rowMajor_val_two, Shape.rowMajor_val_one]
  show j.val = (win0_3.index t (0 : Fin 2) * 1 + 1 * 0) * 128 + (win0_3.index t (1 : Fin 2) * 128 + 1 * j.val)
  omega

/-- The second bias window's one row is `b2`. -/
theorem b2B_at (c : Dev nD) (t : Fin cfg0.N) (j : Fin 64) :
    b2B m c t (ix2 (0 : Fin 1) j) = (m ((c.tc : Thread nD τ).loc main_arg5) : S64.Idx → EReal) (ix1 j) := by
  obtain ⟨-, -, -, -, -, -, -, -, e0, e1⟩ := idx_whole t
  unfold b2B iblk
  rw [View.read_apply]
  show (V m c main_v1 : S1x64.Idx → EReal) _ = _
  rw [V_b2]
  refine shapeCast_apply _ shapeCasts_S64_S1x64 _ (ix1 j) ?_
  rewrite [Shape.rowMajor_val_two, Shape.rowMajor_val_one]
  show j.val = (win0_5.index t (0 : Fin 2) * 1 + 1 * 0) * 64 + (win0_5.index t (1 : Fin 2) * 64 + 1 * j.val)
  omega

/-- On layer 0 the adjacency block of the point that fills row `r`, at row `r % 400`, is row `r` of `adj[0]`:
    the band is `r / 400` and `400 (r / 400) + r % 400 = r`. -/
theorem adj_layer0 (c : Dev nD) (r k : Fin 10000) :
    adjB m c (bandPt r) (ix3 (0 : Fin 1) (⟨r.val % 400, Nat.mod_lt _ (by omega)⟩ : Fin 400) k)
      = (m ((c.tc : Thread nD τ).loc main_arg1) : S2x10000x10000.Idx → EReal) (ix3 (0 : Fin 2) r k) :=
  (adjB_at m c (bandPt r) _ k).trans (congrArg _ (funext fun a => Fin.ext (by
    have hr : r.val < 10000 := r.isLt
    match a with
    | ⟨0, _⟩ => show r.val / 400 / 25 = 0; omega
    | ⟨1, _⟩ => show 400 * (r.val / 400 % 25) + r.val % 400 = r.val; omega
    | ⟨2, _⟩ => rfl)))

/-- On layer 1 the adjacency block of point `t`, at row `p`, is row `400 (t - 25) + p` of `adj[1]`. -/
theorem adj_layer1 (c : Dev nD) (t : Fin cfg0.N) (ht : 25 ≤ t.val) (p : Fin 400) (k : Fin 10000) :
    adjB m c t (ix3 (0 : Fin 1) p k)
      = (m ((c.tc : Thread nD τ).loc main_arg1) : S2x10000x10000.Idx → EReal)
          (ix3 (1 : Fin 2) (⟨400 * (t.val - 25) + p.val, by have := lt50 t; have := p.isLt; omega⟩ : Fin 10000) k) :=
  (adjB_at m c t p k).trans (congrArg _ (funext fun a => Fin.ext (by
    have h50 := lt50 t
    match a with
    | ⟨0, _⟩ => show t.val / 25 = 1; omega
    | ⟨1, _⟩ => show 400 * (t.val % 25) + p.val = 400 * (t.val - 25) + p.val; omega
    | ⟨2, _⟩ => rfl)))

/-! ## What the scratch buffers hold is the specification's -/

/-- The projected features. -/
theorem XW_at (c : Dev nD) (r : Fin 10000) (j : Fin 128) :
    XW m c (ix2 r j) = Cert.Spec.xw (m ((c.tc : Thread nD τ).loc main_arg0)) (m ((c.tc : Thread nD τ).loc main_arg2)) r j := by
  unfold XW
  refine (PayValue.pay1_apply _ _ r j).trans ?_
  unfold Cert.Spec.xw
  refine Finset.sum_congr rfl fun k _ => ?_
  rw [xB_at, w1B_at]

/-- The first layer: row `r` is row `r % 400` of its band's block. -/
theorem H_at (c : Dev nD) (r : Fin 10000) (j : Fin 128) :
    H m c (ix2 r j) = Cert.Spec.hid (m ((c.tc : Thread nD τ).loc main_arg0)) (m ((c.tc : Thread nD τ).loc main_arg1)) (m ((c.tc : Thread nD τ).loc main_arg2)) (m ((c.tc : Thread nD τ).loc main_arg3)) r j := by
  unfold H
  show k0_pay2 (F := Ideal) (adjB m c (bandPt r)) (XW m c) (b1B m c (bandPt r))
      (ix2 (⟨r.val % 400, Nat.mod_lt _ (by omega)⟩ : Fin 400) j) = _
  refine (PayValue.pay2_apply _ _ _ _ j).trans ?_
  unfold Cert.Spec.hid
  refine congrArg₂ max (congrArg₂ (· + ·) (Finset.sum_congr rfl fun k _ => ?_) (b1B_at m c _ j)) rfl
  rw [adj_layer0, XW_at]

/-- The first layer projected. -/
theorem HW_at (c : Dev nD) (r : Fin 10000) (j : Fin 64) :
    HW m c (ix2 r j) = Cert.Spec.hw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r j := by
  unfold HW
  refine (PayValue.pay3_apply _ _ r j).trans ?_
  unfold Cert.Spec.hw
  refine Finset.sum_congr rfl fun k _ => ?_
  rw [H_at, w2B_at]

/-- The result block of a point of layer 1 is its band of the specification. -/
theorem outB_at (c : Dev nD) (t : Fin cfg0.N) (ht : 25 ≤ t.val) (p : Fin 400) (j : Fin 64) :
    outB m c t (ix2 p j)
      = specOut m c (ix2 (⟨400 * (t.val - 25) + p.val, by have := lt50 t; have := p.isLt; omega⟩ : Fin 10000) j) := by
  unfold outB
  refine (PayValue.pay4_apply _ _ _ p j).trans ?_
  unfold specOut Cert.Spec.out
  refine congrArg₂ (· + ·) (Finset.sum_congr rfl fun k _ => ?_) (b2B_at m c t j)
  exact congrArg₂ (· * ·) (adj_layer1 m c t ht p k) (HW_at m c k j)

/-! ## The write-backs and the cover -/

/-- The result block of a point of layer 1, at any index of the block, is the specification at the block's place in the array. -/
theorem outB_blk (c : Dev nD) (t : Fin cfg0.N) (ht : 25 ≤ t.val) (y : S400x64.Idx) :
    outB m c t y = specOut m c (((cfg0.win 6).blk t).view.emb y) := by
  obtain ⟨e0, e1⟩ := idx_out t
  have e0 := e0 ht
  obtain ⟨p, q, rfl⟩ : ∃ (p : Fin 400) (q : Fin 64), y = ix2 p q := ⟨y 0, y 1, eq_ix2 y⟩
  rw [outB_at m c t ht p q]
  refine congrArg _ (funext fun a => Fin.ext ?_)
  match a with
  | ⟨0, _⟩ => show 400 * (t.val - 25) + p.val = win0_6.index t (0 : Fin 2) * 400 + 1 * p.val; omega
  | ⟨1, _⟩ => show q.val = win0_6.index t (1 : Fin 2) * 64 + 1 * q.val; omega

/-- A point writes the result window back only on layer 1. -/
theorem layer1_of_flush (t : Fin cfg0.N) (hf : (cfg0.win 6).flush t = true) : 25 ≤ t.val := by
  rcases Nat.lt_or_ge t.val 25 with h | h
  · rw [noFlush6 t h] at hf; exact absurd hf (by decide)
  · exact h

/-- What a point writes back is its block of the specification. -/
theorem flushed_out (c : Dev nD) (t : Fin cfg0.N) (hf : (cfg0.win 6).flush t = true) :
    (dats (F := Ideal) m 0 c).flushed 6 t = ((cfg0.win 6).blk t).view.read (Elt Ideal) (specOut m c) := by
  have ht := layer1_of_flush t hf
  show (cfg0.win 6).cut (grid0.coords t) ((dats m 0 c).after 6 t) = _
  rw [after6]
  funext y
  exact outB_blk m c t ht y

/-- An index of the result array is in point `t`'s block iff each coordinate is in the block's range on its axis. -/
theorem mem_out_blk (t : Fin cfg0.N) (i : S10000x64.Idx) :
    i ∈ ((cfg0.win 6).blk t).view.set ↔ ∀ a : Fin 2, win0_6.index t a * S400x64.size a ≤ (i a).val
      ∧ (i a).val < win0_6.index t a * S400x64.size a + S400x64.size a := by
  show i ∈ ((View.whole main_v2).slice (win0_6.rect t)).set ↔ _
  rw [View.set_slice_whole, Rect.mem_set_unit]
  exact Iff.rfl

/-- Row `r` of the result is written back by point `25 + r / 400`: the 25 bands tile the array. -/
theorem cover_out (i : S10000x64.Idx) :
    ∃ t : Fin cfg0.N, (cfg0.win 6).flush t = true ∧ i ∈ ((cfg0.win 6).blk t).view.set := by
  have hi0 : (i 0).val < 10000 := (i 0).isLt
  have hi1 : (i 1).val < 64 := (i 1).isLt
  have ht : 25 ≤ (pt (25 + (i 0).val / 400) (by omega)).val := by rw [pt_val]; omega
  refine ⟨pt (25 + (i 0).val / 400) (by omega), flush6 _ ht, ?_⟩
  obtain ⟨e0, e1⟩ := idx_out (pt (25 + (i 0).val / 400) (by omega))
  have e0 := e0 ht
  rw [pt_val] at e0
  rw [mem_out_blk]
  intro a
  match a with
  | ⟨0, _⟩ =>
    show win0_6.index (pt (25 + (i 0).val / 400) (by omega)) (0 : Fin 2) * 400 ≤ (i 0).val
      ∧ (i 0).val < win0_6.index (pt (25 + (i 0).val / 400) (by omega)) (0 : Fin 2) * 400 + 400
    omega
  | ⟨1, _⟩ =>
    show win0_6.index (pt (25 + (i 0).val / 400) (by omega)) (1 : Fin 2) * 64 ≤ (i 1).val
      ∧ (i 1).val < win0_6.index (pt (25 + (i 0).val / 400) (by omega)) (1 : Fin 2) * 64 + 64
    omega

/-- After every write-back the result array holds the specification. -/
theorem final (c : Dev nD) : (dats (F := Ideal) m 0 c).arrAt 6 cfg0.N = specOut m c := by
  exact (dats (F := Ideal) m 0 c).arrAt_eq_of_cover 6 (specOut m c) (flushed_out m c) cover_out

end Cert.KernelIdeal.KernelValue

end
-- ==== Proof.RefValue.lean ====
/-
  The reference program read at the ideal instance: its result, index by index, is the two-layer graph convolution
  of the argument arrays (the specification's `out`).
-/
import proofs.«100692_g74002286510483_cont_9to1_m_578_16_alg».proof.Proof.Gen.ReferenceIdeal.Read
import proofs.«100692_g74002286510483_cont_9to1_m_578_16_alg».proof.Proof.Spec

noncomputable section

namespace Cert.ReferenceIdeal.RefValue

open Idealize.ShloMosaic Idealize.ShloMosaic.ValueIdx Cert.ReferenceIdeal

/-! ## The two adjacency matrices

Slice `s` of the adjacency array, reshaped from `[1, 10000, 10000]` to a matrix, read at `(r, k)`: the flat position
`r * 10000 + k` splits back into `(r, k)` because `k < 10000`, so the element is `adj[s, r, k]`. -/

/-- The first adjacency matrix at `(r, k)` is `adj[0, r, k]`. -/
theorem adj0_at (x1 : (⟨S2x10000x10000, .f32⟩ : BufTy).Contents (Elt Ideal)) (r k : Fin 10000) :
    Read.val_main_v1 (F := Ideal) x1 (ix2 r k) = x1 (ix3 (0 : Fin 2) r k) := by
  rw [Read.val_main_v1_apply, Read.val_main_v0_apply]
  refine congrArg x1 (funext fun a => Fin.ext ?_)
  have hr : r.val < 10000 := r.isLt
  have hk : k.val < 10000 := k.isLt
  match a with
  | ⟨0, _⟩ => rfl
  | ⟨1, _⟩ => show (r.val * 10000 + k.val) / 10000 % 10000 = r.val; omega
  | ⟨2, _⟩ => show (r.val * 10000 + k.val) % 10000 = k.val; omega

/-- The second adjacency matrix at `(r, k)` is `adj[1, r, k]`. -/
theorem adj1_at (x1 : (⟨S2x10000x10000, .f32⟩ : BufTy).Contents (Elt Ideal)) (r k : Fin 10000) :
    Read.val_main_v9 (F := Ideal) x1 (ix2 r k) = x1 (ix3 (1 : Fin 2) r k) := by
  rw [Read.val_main_v9_apply, Read.val_main_v8_apply]
  refine congrArg x1 (funext fun a => Fin.ext ?_)
  have hr : r.val < 10000 := r.isLt
  have hk : k.val < 10000 := k.isLt
  match a with
  | ⟨0, _⟩ => rfl
  | ⟨1, _⟩ => show (r.val * 10000 + k.val) / 10000 % 10000 = r.val; omega
  | ⟨2, _⟩ => show (r.val * 10000 + k.val) % 10000 = k.val; omega

/-! ## The four stages, each at explicit coordinates -/

/-- The first matrix product is the projected features: row `r` of `x` against column `j` of `W1`. -/
theorem xw_at (x0 : (⟨S10000x128, .f32⟩ : BufTy).Contents (Elt Ideal)) (x2 : (⟨S128x128, .f32⟩ : BufTy).Contents (Elt Ideal))
    (r : Fin 10000) (j : Fin 128) :
    Read.val_main_v2 (F := Ideal) x0 x2 (ix2 r j) = Cert.Spec.xw x0 x2 r j := by
  rw [Read.val_main_v2_apply]
  unfold Cert.Spec.xw
  refine Finset.sum_congr rfl fun k _ => ?_
  have el : Read.lidx_main_v2 (ix2 r j) k = ix2 r k :=
    funext fun a => Fin.ext (by match a with | ⟨0, _⟩ => rfl | ⟨1, _⟩ => rfl)
  have er : Read.ridx_main_v2 (ix2 r j) k = ix2 k j :=
    funext fun a => Fin.ext (by match a with | ⟨0, _⟩ => rfl | ⟨1, _⟩ => rfl)
  rw [el, er]

/-- The first layer: the adjacency product of the projected features, plus the bias row broadcast down the rows,
    compared with the zero word broadcast everywhere. -/
theorem hid_at (x0 : (⟨S10000x128, .f32⟩ : BufTy).Contents (Elt Ideal)) (x1 : (⟨S2x10000x10000, .f32⟩ : BufTy).Contents (Elt Ideal))
    (x2 : (⟨S128x128, .f32⟩ : BufTy).Contents (Elt Ideal)) (x3 : (⟨S128, .f32⟩ : BufTy).Contents (Elt Ideal))
    (r : Fin 10000) (j : Fin 128) :
    Read.val_main_v7 (F := Ideal) x0 x1 x2 x3 (ix2 r j) = Cert.Spec.hid x0 x1 x2 x3 r j := by
  rw [Read.val_main_v7_apply, Read.val_main_v6_apply, Read.val_main_v3_apply, Read.val_main_v5_apply,
    Read.val_main_v4_apply, Read.val_main_call0_v0_apply, Read.val_main_call0_cst_apply]
  have hsum : (∑ k : Fin 10000, Read.val_main_v1 (F := Ideal) x1 (Read.lidx_main_v3 (ix2 r j) k)
        * Read.val_main_v2 (F := Ideal) x0 x2 (Read.ridx_main_v3 (ix2 r j) k))
      = ∑ k : Fin 10000, x1 (ix3 (0 : Fin 2) r k) * Cert.Spec.xw x0 x2 k j := by
    refine Finset.sum_congr rfl fun k _ => ?_
    have el : Read.lidx_main_v3 (ix2 r j) k = ix2 r k :=
      funext fun a => Fin.ext (by match a with | ⟨0, _⟩ => rfl | ⟨1, _⟩ => rfl)
    have er : Read.ridx_main_v3 (ix2 r j) k = ix2 k j :=
      funext fun a => Fin.ext (by match a with | ⟨0, _⟩ => rfl | ⟨1, _⟩ => rfl)
    rw [el, er, adj0_at, xw_at]
  have hb : Read.idx_main_v4 (Read.idx_main_v5 (ix2 r j)) = ix1 j :=
    funext fun a => Fin.ext (by match a with | ⟨0, _⟩ => rfl)
  rw [hsum, hb, Ideal.maximumf_def, Ideal.addf_def, Ideal.ofBits_def]
  rfl

/-- The third matrix product is the hidden features projected: row `r` of the first layer against column `c` of `W2`. -/
theorem hw_at (x0 : (⟨S10000x128, .f32⟩ : BufTy).Contents (Elt Ideal)) (x1 : (⟨S2x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (r : Fin 10000) (c : Fin 64) :
    Read.val_main_v10 (F := Ideal) x0 x1 x2 x3 x4 (ix2 r c) = Cert.Spec.hw x0 x1 x2 x3 x4 r c := by
  rw [Read.val_main_v10_apply]
  unfold Cert.Spec.hw
  refine Finset.sum_congr rfl fun k _ => ?_
  have el : Read.lidx_main_v10 (ix2 r c) k = ix2 r k :=
    funext fun a => Fin.ext (by match a with | ⟨0, _⟩ => rfl | ⟨1, _⟩ => rfl)
  have er : Read.ridx_main_v10 (ix2 r c) k = ix2 k c :=
    funext fun a => Fin.ext (by match a with | ⟨0, _⟩ => rfl | ⟨1, _⟩ => rfl)
  rw [el, er, hid_at]

/-- The reference's last stage, as a function of the six arguments, is the specification. -/
theorem ref_is_spec (x0 : (⟨S10000x128, .f32⟩ : BufTy).Contents (Elt Ideal)) (x1 : (⟨S2x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    Cert.ReferenceIdeal.Read.val_main_v14 (F := Ideal) x0 x1 x2 x3 x4 x5 = Cert.Spec.out x0 x1 x2 x3 x4 x5 := by
  funext i
  obtain ⟨r, c, rfl⟩ : ∃ (r : Fin 10000) (c : Fin 64), i = ix2 r c := ⟨i 0, i 1, eq_ix2 i⟩
  rw [Read.val_main_v14_apply, Read.val_main_v11_apply, Read.val_main_v13_apply, Read.val_main_v12_apply]
  have hsum : (∑ k : Fin 10000, Read.val_main_v9 (F := Ideal) x1 (Read.lidx_main_v11 (ix2 r c) k)
        * Read.val_main_v10 (F := Ideal) x0 x1 x2 x3 x4 (Read.ridx_main_v11 (ix2 r c) k))
      = ∑ k : Fin 10000, x1 (ix3 (1 : Fin 2) r k) * Cert.Spec.hw x0 x1 x2 x3 x4 k c := by
    refine Finset.sum_congr rfl fun k _ => ?_
    have el : Read.lidx_main_v11 (ix2 r c) k = ix2 r k :=
      funext fun a => Fin.ext (by match a with | ⟨0, _⟩ => rfl | ⟨1, _⟩ => rfl)
    have er : Read.ridx_main_v11 (ix2 r c) k = ix2 k c :=
      funext fun a => Fin.ext (by match a with | ⟨0, _⟩ => rfl | ⟨1, _⟩ => rfl)
    rw [el, er, adj1_at, hw_at]
  have hb : Read.idx_main_v12 (Read.idx_main_v13 (ix2 r c)) = ix1 c :=
    funext fun a => Fin.ext (by match a with | ⟨0, _⟩ => rfl)
  rw [hsum, hb, Ideal.addf_def]
  rfl

end Cert.ReferenceIdeal.RefValue

end
-- ==== Proof.lean ====
/-
  The certificate of a fused two-layer graph convolution kernel against its plain reference:

      out = adj[1] · (max (adj[0] · (x · W1) + b1) 0 · W2) + b2

  over x : f32[10000, 128], adj : f32[2, 10000, 10000], W1 : f32[128, 128], b1 : f32[128], W2 : f32[128, 64], b2 : f32[64].

  The kernel walks a (layer, row band) grid of 2 × 25 points. At the first point it stores `x · W1` in a scratch
  buffer; at each point of layer 0 it multiplies a band of 400 rows of `adj[0]` by that scratch, adds the bias, takes
  the maximum with zero and stores the 400 rows into a second scratch; at the last point of layer 0 it multiplies
  that scratch, now complete, by `W2` into a third; at each point of layer 1 it multiplies a band of `adj[1]` by the
  third scratch, adds the second bias and writes the band of the result back. Every contraction runs over its whole
  axis, exactly as in the reference, so over the extended reals the two programs are the same function term for
  term (`Cert.Spec.out`): no sum is split or reordered and the precondition's finiteness is never used.

  The three frames: the word-level and the idealized kernel each by the launch theorem for a pipeline whose body
  carries scratch contents from point to point, under the invariant "the projected features are in place after point
  0, the first layer's rows below 400 t before point t, its projection after point 24"; the reference by its run.
  The idealization rewrote nothing, so `preserves` holds trivially. For `algebraic`, the kernel's result array is
  read off the same run (the 25 bands written back at the points of layer 1 tile it) and the reference's result off
  its run, and both are the specification of the argument arrays.
-/
import proofs.«100692_g74002286510483_cont_9to1_m_578_16_alg».proof.Defs
import proofs.«100692_g74002286510483_cont_9to1_m_578_16_alg».proof.Proof.Gen.Kernel
import proofs.«100692_g74002286510483_cont_9to1_m_578_16_alg».proof.Proof.Gen.KernelIdeal
import proofs.«100692_g74002286510483_cont_9to1_m_578_16_alg».proof.Proof.Gen.ReferenceIdeal
import proofs.«100692_g74002286510483_cont_9to1_m_578_16_alg».proof.Proof.Gen.Pre_finite_inputs
import proofs.«100692_g74002286510483_cont_9to1_m_578_16_alg».proof.Proof.Gen.ReferenceIdeal.Run
import proofs.«100692_g74002286510483_cont_9to1_m_578_16_alg».proof.Proof.Gen.ReferenceIdeal.Read
import proofs.«100692_g74002286510483_cont_9to1_m_578_16_alg».proof.Proof.Body
import proofs.«100692_g74002286510483_cont_9to1_m_578_16_alg».proof.Proof.BodyK
import proofs.«100692_g74002286510483_cont_9to1_m_578_16_alg».proof.Proof.KernelValue
import proofs.«100692_g74002286510483_cont_9to1_m_578_16_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k [Cert.Pre_finite_inputs.Facts] : Cert.frame_Kernel (hKernel := Cert.Kernel.Gen.facts) :=
  fun m ρ _ => Cert.Kernel.Body.frame (F := Bits) m ρ

/-- So does the idealized kernel. -/
theorem frame_ki [Cert.Pre_finite_inputs.Facts] : Cert.frame_KernelIdeal (hKernelIdeal := Cert.KernelIdeal.Gen.facts) :=
  fun m ρ _ => Cert.KernelIdeal.Body.frame (F := Ideal) m ρ

/-- The reference's frame is its run with the result dropped. -/
theorem frame_ri [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- Both idealized programs end with the specification of the argument arrays in their result. -/
theorem algebraic [Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.KernelValue.specOut m c, ?_, ?_⟩
  · exact (θ_run Cert.KernelIdeal.defs _ _).mono
      (fun _ h c => ⟨((h c).1).trans (Cert.KernelIdeal.KernelValue.final m c), (h c).2⟩)
      (Cert.KernelIdeal.Body.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefValue.ref_is_spec,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
